-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S256x64 : Shape := ⟨2, ![256, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S400000 : Shape := ⟨1, ![400000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_
  bcast_S_S400000 : S_.BroadcastsInDim S400000 (![] : Fin 0 → Fin S400000.rank)
  reducesTo_S400000_S_d0 : S400000.ReducesTo [0] S_

variable [Facts]

def fn_part3 {F : FTy → Type} [FloatOps F] (main_arg10 : IVec S800000 32) (main_arg12 : IVec S400000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg10 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  let main_c_21 : IVec S_ 32 := constantI S_ 32 0#32
  let main_v56 : IVec S400000 32 := broadcastInDim S400000 ![] bcast_S_S400000 main_c_21
  let main_v57 : IVec S400000 1 := cmpi .sge main_arg12 main_v56
  let main_c_22 : IVec S_ 32 := constantI S_ 32 256#32
  let main_v58 : IVec S400000 32 := broadcastInDim S400000 ![] bcast_S_S400000 main_c_22
  let main_v59 : IVec S400000 1 := cmpi .slt main_arg12 main_v58
  let main_v60 : IVec S400000 1 := andi main_v57 main_v59
  let main_c_23 : IVec S_ 1 := constantI S_ 1 1#1
  let main_v61 : IVec S_ 1 := (fun x v => Host.reduce IntOp.andi x v reducesTo_S400000_S_d0 h_S_) main_v60 main_c_23
  let main_v62 : IVec S_ 1 := andi main_v55 main_v61
  main_v62

def fn_part2 {F : FTy → Type} [FloatOps F] (main_arg7 : FVec F S128 .f32) (main_arg8 : FVec F S128x64 .f32) (main_arg9 : FVec F S64 .f32) (main_arg10 : IVec S800000 32) (main_arg12 : IVec S400000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg10 main_v49
  fn_part3 (F := F) main_arg10 main_arg12 main_v48 main_v50

def fn_part1 {F : FTy → Type} [FloatOps F] (main_arg4 : FVec F S128x64 .f32) (main_arg5 : FVec F S64 .f32) (main_arg6 : FVec F S64x128 .f32) (main_arg7 : FVec F S128 .f32) (main_arg8 : FVec F S128x64 .f32) (main_arg9 : FVec F S64 .f32) (main_arg10 : IVec S800000 32) (main_arg12 : IVec S400000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg12 main_v33

def fn {F : FTy → Type} [FloatOps F] (main_arg0 : FVec F S50000x64 .f32) (main_arg1 : FVec F S256x64 .f32) (main_arg2 : FVec F S64x128 .f32) (main_arg3 : FVec F S128 .f32) (main_arg4 : FVec F S128x64 .f32) (main_arg5 : FVec F S64 .f32) (main_arg6 : FVec F S64x128 .f32) (main_arg7 : FVec F S128 .f32) (main_arg8 : FVec F S128x64 .f32) (main_arg9 : FVec F S64 .f32) (main_arg10 : IVec S800000 32) (main_arg11 : IVec S800000 32) (main_arg12 : IVec S400000 32) (main_arg13 : IVec S400000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg12 main_v13 main_v16
-- ==== Kernel.lean ====
abbrev S50000x64 : Shape := ⟨2, ![50000, 64]⟩
abbrev S256x64 : Shape := ⟨2, ![256, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S400000 : Shape := ⟨1, ![400000]⟩
abbrev S1x128 : Shape := ⟨2, ![1, 128]⟩
abbrev S1x64 : Shape := ⟨2, ![1, 64]⟩
abbrev S2000x64 : Shape := ⟨2, ![2000, 64]⟩
abbrev S2000x128 : Shape := ⟨2, ![2000, 128]⟩
abbrev S256x128 : Shape := ⟨2, ![256, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S400000x1 : Shape := ⟨2, ![400000, 1]⟩
abbrev S400000x64 : Shape := ⟨2, ![400000, 64]⟩
abbrev S1200000x64 : Shape := ⟨2, ![1200000, 64]⟩
abbrev S1200000 : Shape := ⟨1, ![1200000]⟩
abbrev S1200000x1 : Shape := ⟨2, ![1200000, 1]⟩
abbrev S25000x128 : Shape := ⟨2, ![25000, 128]⟩
abbrev S5000x128 : Shape := ⟨2, ![5000, 128]⟩

abbrev nBuf : Space → Nat
  | .hbm => 76
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S256x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S400000, .i32⟩
  | .hbm, ⟨13, _⟩ => ⟨S400000, .i32⟩
  | .hbm, ⟨14, _⟩ => ⟨S1x128, .f32⟩
  | .hbm, ⟨15, _⟩ => ⟨S1x64, .f32⟩
  | .hbm, ⟨16, _⟩ => ⟨S50000x64, .f32⟩
  | .hbm, ⟨17, _⟩ => ⟨S1x128, .f32⟩
  | .hbm, ⟨18, _⟩ => ⟨S1x64, .f32⟩
  | .hbm, ⟨19, _⟩ => ⟨S256x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x64, .f32⟩
  | .hbm, ⟨39, _⟩ => ⟨S800000x64, .i1⟩
  | .hbm, ⟨40, _⟩ => ⟨S_, .f32⟩
  | .hbm, ⟨41, _⟩ => ⟨S800000x64, .f32⟩
  | .hbm, ⟨42, _⟩ => ⟨S800000x64, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S1, .i32⟩
  | .hbm, ⟨52, _⟩ => ⟨S_, .i32⟩
  | .hbm, ⟨53, _⟩ => ⟨S400000x1, .i32⟩
  | .hbm, ⟨54, _⟩ => ⟨S400000x1, .i1⟩
  | .hbm, ⟨55, _⟩ => ⟨S1x1, .i32⟩
  | .hbm, ⟨56, _⟩ => ⟨S400000x1, .i32⟩
  | .hbm, ⟨57, _⟩ => ⟨S400000x1, .i1⟩
  | .hbm, ⟨58, _⟩ => ⟨S400000x1, .i1⟩
  | .hbm, ⟨59, _⟩ => ⟨S_, .i1⟩
  | .hbm, ⟨60, _⟩ => ⟨S400000, .i1⟩
  | .hbm, ⟨61, _⟩ => ⟨S400000x64, .f32⟩
  | .hbm, ⟨62, _⟩ => ⟨S400000x64, .i1⟩
  | .hbm, ⟨63, _⟩ => ⟨S_, .f32⟩
  | .hbm, ⟨64, _⟩ => ⟨S400000x64, .f32⟩
  | .hbm, ⟨65, _⟩ => ⟨S400000x64, .f32⟩
  | .hbm, ⟨66, _⟩ => ⟨S1200000x64, .f32⟩
  | .hbm, ⟨67, _⟩ => ⟨S1200000, .i32⟩
  | .hbm, ⟨68, _⟩ => ⟨S_, .f32⟩
  | .hbm, ⟨69, _⟩ => ⟨S50000x64, .f32⟩
  | .hbm, ⟨70, _⟩ => ⟨S1200000x1, .i32⟩
  | .hbm, ⟨71, _⟩ => ⟨S50000x64, .f32⟩
  | .hbm, ⟨72, _⟩ => ⟨S25000x128, .f32⟩
  | .hbm, ⟨73, _⟩ => ⟨S25000x128, .f32⟩
  | .hbm, ⟨74, _⟩ => ⟨S25000x128, .f32⟩
  | .hbm, ⟨75, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S256x64, .f32⟩
  | .local _ .vmem, ⟨9, _⟩ => ⟨S64x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S256x64, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_cst : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S256x64_S256x64_0_0 : ∀ a, (![0, 0] : Fin 2 → Nat) a + S256x64.size a ≤ S256x64.size a
  h_S256x64 : 0 < S256x64.numel
  broadcasts_S1x128_S256x128 : S1x128.Broadcasts S256x128
  broadcasts_S1x64_S256x64 : S1x64.Broadcasts S256x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x64_0 : S400000.BroadcastsInDim S400000x64 (![0] : Fin 1 → Fin S400000x64.rank)
  bcast_S_S400000x64 : S_.BroadcastsInDim S400000x64 (![] : Fin 0 → Fin S400000x64.rank)
  concatenates_S800000x64_S400000x64_S1200000x64_d0 : Shape.Concatenates [S800000x64, S400000x64] S1200000x64 0
  concatenates_S800000_S400000_S1200000_d0 : Shape.Concatenates [S800000, S400000] S1200000 0
  bcast_S_S50000x64 : S_.BroadcastsInDim S50000x64 (![] : Fin 0 → Fin S50000x64.rank)
  bcast_S1200000_S1200000x1_0 : S1200000.BroadcastsInDim S1200000x1 (![0] : Fin 1 → Fin S1200000x1.rank)
  shapeCasts_S50000x64_S25000x128 : S50000x64.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S50000x64 : S25000x128.ShapeCasts S50000x64
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S256x64_S64x128_S256x128_1_0_0_1_n_n_wf : DotDims.WF S256x64 S64x128 S256x128 [1] [0] [0] [1] [] []
  dot_S256x128_S128x64_S256x64_1_0_0_1_n_n_wf : DotDims.WF S256x128 S128x64 S256x64 [1] [0] [0] [1] [] []
  gather_S50000x64_S800000x1_S800000x64_1_0_n_n_0_1_164_wf : GatherDims.WF S50000x64 S800000x1 S800000x64 [1] [0] [] [0] [] 1 ![1, 64]
  gather_S256x64_S400000x1_S400000x64_1_0_n_n_0_1_164_wf : GatherDims.WF S256x64 S400000x1 S400000x64 [1] [0] [] [0] [] 1 ![1, 64]
  scatter_S50000x64_S1200000x1_S1200000x64_1_0_0_1_wf : ScatterDims.WF S50000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S256x64.size a
  hwx1_0 : ∀ i : grid1.Coords, EltTy.bits .f32 = 32 ∨ (Rect.block (s := S256x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S25000x128.size a
  hwx2_2 : ∀ i : grid2.Coords, EltTy.bits .f32 = 32 ∨ (Rect.block (s := S25000x128) S5000x128.size (cc2_transform_2 i) (hinb2_2 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S256x64_S400000x1_S400000x64_1_0_n_n_0_1_164 : GatherDims S256x64 S400000x1 S400000x64 where
  offsetDims := [1]
  collapsedSliceDims := [0]
  operandBatchingDims := []
  startIndicesBatchingDims := []
  startIndexMap := [0]
  indexVectorDim := 1
  sliceSizes := ![1, 64]
  wf := gather_S256x64_S400000x1_S400000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x64.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x64.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S256x64 : Shape := ⟨2, ![256, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S400000 : Shape := ⟨1, ![400000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩
abbrev S400000x1 : Shape := ⟨2, ![400000, 1]⟩
abbrev S400000x64 : Shape := ⟨2, ![400000, 64]⟩
abbrev S400000x128 : Shape := ⟨2, ![400000, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S256x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S400000, .i32⟩
  | .hbm, ⟨13, _⟩ => ⟨S400000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000x64, .f32⟩
  | .hbm, ⟨47, _⟩ => ⟨S400000x128, .f32⟩
  | .hbm, ⟨48, _⟩ => ⟨S1x128, .f32⟩
  | .hbm, ⟨49, _⟩ => ⟨S400000x128, .f32⟩
  | .hbm, ⟨50, _⟩ => ⟨S400000x128, .f32⟩
  | .hbm, ⟨51, _⟩ => ⟨S_, .f32⟩
  | .hbm, ⟨52, _⟩ => ⟨S400000x128, .f32⟩
  | .hbm, ⟨53, _⟩ => ⟨S400000x128, .f32⟩
  | .hbm, ⟨54, _⟩ => ⟨S400000x64, .f32⟩
  | .hbm, ⟨55, _⟩ => ⟨S1x64, .f32⟩
  | .hbm, ⟨56, _⟩ => ⟨S400000x64, .f32⟩
  | .hbm, ⟨57, _⟩ => ⟨S400000x64, .f32⟩
  | .hbm, ⟨58, _⟩ => ⟨S_, .f32⟩
  | .hbm, ⟨59, _⟩ => ⟨S50000x64, .f32⟩
  | .hbm, ⟨60, _⟩ => ⟨S400000x1, .i32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1x64_S400000x64_0_1 : S1x64.BroadcastsInDim S400000x64 (![0, 1] : Fin 2 → Fin S400000x64.rank)
  gather_S50000x64_S800000x1_S800000x64_1_0_n_n_0_1_164_wf : GatherDims.WF S50000x64 S800000x1 S800000x64 [1] [0] [] [0] [] 1 ![1, 64]
  dot_S800000x64_S64x128_S800000x128_1_0_0_1_n_n_wf : DotDims.WF S800000x64 S64x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  gather_S256x64_S400000x1_S400000x64_1_0_n_n_0_1_164_wf : GatherDims.WF S256x64 S400000x1 S400000x64 [1] [0] [] [0] [] 1 ![1, 64]
  dot_S400000x64_S64x128_S400000x128_1_0_0_1_n_n_wf : DotDims.WF S400000x64 S64x128 S400000x128 [1] [0] [0] [1] [] []
  dot_S400000x128_S128x64_S400000x64_1_0_0_1_n_n_wf : DotDims.WF S400000x128 S128x64 S400000x64 [1] [0] [0] [1] [] []
  scatter_S50000x64_S400000x1_S400000x64_1_0_0_1_wf : ScatterDims.WF S50000x64 S400000x1 S400000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S256x64_S400000x1_S400000x64_1_0_n_n_0_1_164 : GatherDims S256x64 S400000x1 S400000x64 where
  offsetDims := [1]
  collapsedSliceDims := [0]
  operandBatchingDims := []
  startIndicesBatchingDims := []
  startIndexMap := [0]
  indexVectorDim := 1
  sliceSizes := ![1, 64]
  wf := gather_S256x64_S400000x1_S400000x64_1_0_n_n_0_1_164_wf
def dot_S400000x64_S64x128_S400000x128_1_0_0_1_n_n : DotDims S400000x64 S64x128 S400000x128 where
  lhsContracting := [1]
  rhsContracting := [0]
  lhsNonContracting := [0]
  rhsNonContracting := [1]
  lhsBatch := []
  rhsBatch := []
  wf := dot_S400000x64_S64x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf

class Facts : Prop extends Facts₀ where

variable [Facts]
-- ==== Proof.Spec.lean ====
/-
  The mathematics both programs compute, stated once over literal shapes.

  A table `X` of rows of 64 numbers goes through a two-layer perceptron row by row:
  `h = max (X·W1 + b1) 0` (128 wide), then `h·W2 + b2` (64 wide). Entry `(n, q)` of the result
  depends on row `n` of `X` only, which is why applying the perceptron to a table and then
  picking rows gives the same numbers as picking rows first and applying it to them.
-/
import Idealize.ShloMosaic.PureOps.Ideal
import Idealize.ShloMosaic.Lib.ValueIdx

noncomputable section

namespace Cert.Spec

open Idealize.ShloMosaic Idealize.ShloMosaic.ValueIdx

/-- The f32 zero word read as an extended real (kept as the word: both programs carry the same one). -/
abbrev z : EReal := Ideal.ofBits .f32 0x00000000#32

/-- Entry `(n, q)` of the perceptron's output for the table `X`:
    `(∑ₖ max ((∑_d X[n,d]·W1[d,k]) + b1[k]) 0 · W2[k,q]) + b2[q]`. -/
def mlpAt {N : Nat} (X : (⟨2, ![N, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (n : Fin N) (q : Fin 64) : EReal :=
  (∑ k : Fin 128, max ((∑ d : Fin 64, X (ix2 n d) * W1 (ix2 d k)) + b1 (ix1 k)) z * W2 (ix2 k q)) + b2 (ix1 q)

/-- The perceptron applied to every row of the table. -/
def mlpTable {N : Nat} (X : (⟨2, ![N, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) : (⟨2, ![N, 64]⟩ : Shape).Idx → EReal :=
  fun i => mlpAt X W1 b1 W2 b2 (i 0) (i 1)

theorem mlpTable_apply {N : Nat} (X : (⟨2, ![N, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (n : Fin N) (q : Fin 64) :
    mlpTable X W1 b1 W2 b2 (ix2 n q) = mlpAt X W1 b1 W2 b2 n q := rfl

/-- An index vector whose every entry, read signed, names a row of a table of `N` rows. -/
def InRange {s : Shape} (N : Nat) (x : IVec s 32) : Prop := ∀ e, 0 ≤ (x e).toInt ∧ (x e).toInt < N

end Cert.Spec

end
-- ==== Proof.Args.lean ====
/-
  Names for the idealized kernel program's argument arrays on a core, at their literal shapes, and for the
  row-index vectors the two gathers read: an index below zero is taken from the end (the table's height
  added), then the vector is laid out as a column.
-/
import proofs.«430758_j9096740733260_2_alg».proof.Proof.Gen.KernelIdeal.Frame
import proofs.«430758_j9096740733260_2_alg».proof.Proof.Spec

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

abbrev xv (c : Dev nD) : S50000x64.Idx → EReal := m ((c : Thread nD τ).loc main_arg0)
abbrev xc (c : Dev nD) : S256x64.Idx → EReal := m ((c : Thread nD τ).loc main_arg1)
abbrev w1v (c : Dev nD) : S64x128.Idx → EReal := m ((c : Thread nD τ).loc main_arg2)
abbrev b1v (c : Dev nD) : S128.Idx → EReal := m ((c : Thread nD τ).loc main_arg3)
abbrev w2v (c : Dev nD) : S128x64.Idx → EReal := m ((c : Thread nD τ).loc main_arg4)
abbrev b2v (c : Dev nD) : S64.Idx → EReal := m ((c : Thread nD τ).loc main_arg5)
abbrev w1c (c : Dev nD) : S64x128.Idx → EReal := m ((c : Thread nD τ).loc main_arg6)
abbrev b1c (c : Dev nD) : S128.Idx → EReal := m ((c : Thread nD τ).loc main_arg7)
abbrev w2c (c : Dev nD) : S128x64.Idx → EReal := m ((c : Thread nD τ).loc main_arg8)
abbrev b2c (c : Dev nD) : S64.Idx → EReal := m ((c : Thread nD τ).loc main_arg9)
abbrev srcv (c : Dev nD) : IVec S800000 32 := m ((c : Thread nD τ).loc main_arg10)
abbrev dstv (c : Dev nD) : IVec S800000 32 := m ((c : Thread nD τ).loc main_arg11)
abbrev srcc (c : Dev nD) : IVec S400000 32 := m ((c : Thread nD τ).loc main_arg12)
abbrev dstc (c : Dev nD) : IVec S400000 32 := m ((c : Thread nD τ).loc main_arg13)

/-- The row indices the node-table gather reads: a negative index has the table's 50000 rows added. -/
def idxV (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The row indices the colour-table gather reads: a negative index has the table's 256 rows added. -/
def idxC (x : IVec S400000 32) : IVec S400000x1 32 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 256#32))) x)

end Cert.KernelIdeal.Val

end
-- ==== Proof.Pre.lean ====
/-
  What the precondition says about the two row-index inputs: every entry of the node index vector, read as a
  signed integer, lies in [0, 50000), and every entry of the colour index vector in [0, 256). The precondition
  is a conjunction of "all entries satisfy …" tests; the last two are these range tests.
-/
import proofs.«430758_j9096740733260_2_alg».proof.Defs
import proofs.«430758_j9096740733260_2_alg».proof.Proof.Gen.Pre_finite_inputs
import proofs.«430758_j9096740733260_2_alg».proof.Proof.Args
import Idealize.ShloMosaic.Lib.ReduceAll
import Idealize.ShloMosaic.Lib.StableHlo.Predicate

noncomputable section

namespace Cert.KernelIdeal.Val

open Cert.KernelIdeal Idealize.ShloMosaic Idealize.ShloMosaic.TcCoe Idealize.SL.Sem

/-- One range test read back. The test is the "and" over all entries of (x ≥ lo) ∧ (x < hi), both compared signed,
    where lo and hi are arrays holding one constant everywhere (the words 0 and N). If the "and" came out 1 then
    every entry passed both comparisons, and a signed comparison of words is the comparison of the integers they
    read as; N is small enough that its word reads as N. -/
theorem inRange_of_all {s : Shape} {axes : List (Fin s.rank)} (N : Nat) (hN : (BitVec.ofNat 32 N).toInt = (N : Int))
    (x lo hi : IVec s 32) (hlo : ∀ i, lo i = 0#32) (hhi : ∀ i, hi i = BitVec.ofNat 32 N)
    (init : IVec Cert.Pre_finite_inputs.S_ 1) (hr : s.ReducesTo axes Cert.Pre_finite_inputs.S_)
    (hu : 0 < Cert.Pre_finite_inputs.S_.numel) (j : Cert.Pre_finite_inputs.S_.Idx)
    (e : Host.reduce IntOp.andi (andi (cmpi .sge x lo) (cmpi .slt x hi)) init hr hu j = 1#1) :
    Cert.Spec.InRange N x := by
  intro i
  -- a shape with no axes has exactly one index (the empty tuple), so the "and" over every axis lands on one word
  haveI : Subsingleton Cert.Pre_finite_inputs.S_.Idx := ⟨fun _ _ => funext fun d => d.elim0⟩
  -- hence the entry at i of the array under the "and" is 1
  have t : IntOp.andi (IntOp.cmpi .sge (x i) (lo i)) (IntOp.cmpi .slt (x i) (hi i)) = 1#1 :=
    Host.reduce_andi_all (andi (cmpi .sge x lo) (cmpi .slt x hi)) init hr hu j e i
  obtain ⟨t0, t1⟩ := IntOp.andi_eq_one.1 t
  have a0 : (lo i).toInt ≤ (x i).toInt := IntOp.cmpi_sge.1 t0
  have a1 : (x i).toInt < (hi i).toInt := IntOp.cmpi_slt.1 t1
  rw [hlo i, show (0#32 : BitVec 32).toInt = 0 from by decide] at a0
  rw [hhi i, hN] at a1
  exact ⟨a0, a1⟩

/-- Under the precondition both row-index vectors name rows of their tables, on every core. -/
theorem inRange_of_pre (m : (ℓ : Loc nD τ sig) → Buf (Elt Ideal) ℓ)
    (h : @Cert.Pre_KernelIdeal Cert.Pre_finite_inputs.Gen.facts m) (c : Dev nD) :
    Cert.Spec.InRange 50000 (srcv m c) ∧ Cert.Spec.InRange 256 (srcc m c) := by
  -- the precondition's one word on this core is 1
  have e := congrFun (h c) ValueIdx.ix0
  dsimp only [Cert.Pre_finite_inputs.fn, Cert.Pre_finite_inputs.fn_part1, Cert.Pre_finite_inputs.fn_part2,
    Cert.Pre_finite_inputs.fn_part3] at e
  -- it is ((earlier tests ∧ node range test) ∧ colour range test): keep the last two, drop the rest unopened
  obtain ⟨e1, eC⟩ := IntOp.andi_eq_one.1 e
  obtain ⟨-, eV⟩ := IntOp.andi_eq_one.1 e1
  exact ⟨inRange_of_all 50000 (by decide) _ _ _ (fun _ => rfl) (fun _ => rfl) _ _ _ _ eV,
    inRange_of_all 256 (by decide) _ _ _ (fun _ => rfl) (fun _ => rfl) _ _ _ _ eC⟩

end Cert.KernelIdeal.Val

end
-- ==== Proof.Tables.lean ====
/-
  The two perceptron launches. Each grid point takes a block of rows of its table (2000 rows of the node
  table at each of 25 points; all 256 rows of the colour table at one point), multiplies by the first weight
  matrix, adds the first bias, clips below at zero, multiplies by the second weight matrix and adds the
  second bias; the blocks tile the table, so after the launch the output array is the perceptron applied to
  every row of the table.

  The road, for each launch: (1) the body's result at an entry of its block, as the perceptron's formula over
  the loaded blocks (a matrix product into a zero accumulator is the row-times-column sum; a format change is
  the identity; a bias row spread over the rows reads the row); (2) each loaded block is the matching rows of
  its array as the launch finds it, and those arrays are the arguments (the bias vectors laid out as one-row
  tables), so what a point writes back is its block of the perceptron of the whole table; (3) the blocks cover
  every row, so the array ends holding the perceptron of the whole table.
-/
import proofs.«430758_j9096740733260_2_alg».proof.Proof.Args
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

/-! The steps of the road live in their own namespace; the two results at the end are stated in this one. -/
namespace Mlp

/-- The zero offset pair, as a constant function: every load and the one store of a body are through the whole
    staging buffer. -/
theorem hz : (![0, 0] : Fin 2 → Nat) = fun _ => 0 := funext fun a => by fin_cases a <;> rfl

/-! A bias row [1,n] spread over the rows of an [m,n] table: entry (p, k) is the row's entry k. -/

theorem spread_row_apply {m n : Nat} (b : (⟨2, ![1, n]⟩ : Shape).Idx → EReal)
    (h : (⟨2, ![1, n]⟩ : Shape).Broadcasts ⟨2, ![m, n]⟩) (p : Fin m) (k : Fin n) :
    broadcastTo (⟨2, ![m, n]⟩ : Shape) b h (ix2 p k) = b (ix2 0 k) :=
  broadcastTo_apply b h _ _ (fun a => by
    match a with
    | ⟨0, _⟩ => show (0 : Nat) = if (1 : Nat) = 1 then 0 else _; rw [if_pos rfl]
    | ⟨1, _⟩ =>
      show k.val = if n = 1 then 0 else k.val
      split
      · have := k.isLt; omega
      · rfl)

/-! # The first launch: the node table, 25 blocks of 2000 rows -/

/-! The product of a [2000,64] table by a [64,128] matrix, read at an entry: row times column. -/

theorem mmVa_lhs0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem mmVa_lhs1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem mmVa_rhs0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem mmVa_rhs1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

theorem mmVa_apply {φ₁ φ₂ : FTy} (l : FVec Ideal S2000x64 φ₁) (r : FVec Ideal S64x128 φ₂) (p : Fin 2000) (k : Fin 128) :
    matmul dot_S2000x64_S64x128_S2000x128_1_0_0_1_n_n none l r (constant (F := Ideal) S2000x128 .f32 0x00000000#32) (ix2 p k)
      = ∑ d : Fin 64, l (ix2 p d) * r (ix2 d k) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun d _ => ?_
  have hk := ValueIdx.contrEquiv1_symm_val dot_S2000x64_S64x128_S2000x128_1_0_0_1_n_n 64 rfl rfl d
  have el : dot_S2000x64_S64x128_S2000x128_1_0_0_1_n_n.lhsIdx (ix2 p k) ((ValueIdx.contrEquiv1 dot_S2000x64_S64x128_S2000x128_1_0_0_1_n_n 64 rfl rfl).symm d) = ix2 p d := funext fun a => Fin.ext (by
    match a with
    | ⟨0, _⟩ => exact mmVa_lhs0 _ _
    | ⟨1, _⟩ => exact (mmVa_lhs1 _ _).trans hk)
  have er : dot_S2000x64_S64x128_S2000x128_1_0_0_1_n_n.rhsIdx (ix2 p k) ((ValueIdx.contrEquiv1 dot_S2000x64_S64x128_S2000x128_1_0_0_1_n_n 64 rfl rfl).symm d) = ix2 d k := funext fun a => Fin.ext (by
    match a with
    | ⟨0, _⟩ => exact (mmVa_rhs0 _ _).trans hk
    | ⟨1, _⟩ => exact mmVa_rhs1 _ _)
  rw [el, er]

/-! The product of a [2000,128] table by a [128,64] matrix, read at an entry: row times column. -/

theorem mmVb_lhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mmVb_lhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem mmVb_rhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem mmVb_rhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

theorem mmVb_apply {φ₁ φ₂ : FTy} (l : FVec Ideal S2000x128 φ₁) (r : FVec Ideal S128x64 φ₂) (p : Fin 2000) (k : Fin 64) :
    matmul dot_S2000x128_S128x64_S2000x64_1_0_0_1_n_n none l r (constant (F := Ideal) S2000x64 .f32 0x00000000#32) (ix2 p k)
      = ∑ d : Fin 128, l (ix2 p d) * r (ix2 d k) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun d _ => ?_
  have hk := ValueIdx.contrEquiv1_symm_val dot_S2000x128_S128x64_S2000x64_1_0_0_1_n_n 128 rfl rfl d
  have el : dot_S2000x128_S128x64_S2000x64_1_0_0_1_n_n.lhsIdx (ix2 p k) ((ValueIdx.contrEquiv1 dot_S2000x128_S128x64_S2000x64_1_0_0_1_n_n 128 rfl rfl).symm d) = ix2 p d := funext fun a => Fin.ext (by
    match a with
    | ⟨0, _⟩ => exact mmVb_lhs0 _ _
    | ⟨1, _⟩ => exact (mmVb_lhs1 _ _).trans hk)
  have er : dot_S2000x128_S128x64_S2000x64_1_0_0_1_n_n.rhsIdx (ix2 p k) ((ValueIdx.contrEquiv1 dot_S2000x128_S128x64_S2000x64_1_0_0_1_n_n 128 rfl rfl).symm d) = ix2 d k := funext fun a => Fin.ext (by
    match a with
    | ⟨0, _⟩ => exact (mmVb_rhs0 _ _).trans hk
    | ⟨1, _⟩ => exact mmVb_rhs1 _ _)
  rw [el, er]

/-- The body's result at entry (p, q) of its block: the second product's row-times-column sum over the clipped
    first layer, plus the second bias. -/
theorem payV_apply (v0 : Vec Ideal S2000x64 .f32) (v2 : Vec Ideal S64x128 .f32) (v5 : Vec Ideal S1x128 .f32)
    (v12 : Vec Ideal S128x64 .f32) (v15 : Vec Ideal S1x64 .f32) (p : Fin 2000) (q : Fin 64) :
    k0_pay1 (F := Ideal) v0 v2 v5 v12 v15 (ix2 p q)
      = (∑ k : Fin 128, max ((∑ d : Fin 64, v0 (ix2 p d) * v2 (ix2 d k)) + v5 (ix2 0 k)) Cert.Spec.z * v12 (ix2 k q))
        + v15 (ix2 0 q) := by
  unfold k0_pay1
  rw [addf_apply, mmVb_apply, spread_row_apply, shapeCast_self v15 shapeCasts_S1x64_S1x64]
  refine congrArg (· + v15 (ix2 0 q)) ?_
  refine Finset.sum_congr rfl fun k _ => ?_
  rw [truncf_apply, truncf_apply, maximumf_apply, addf_apply, mmVa_apply, spread_row_apply,
    shapeCast_self v5 shapeCasts_S1x128_S1x128, broadcast_apply]
  rfl

/-- The same entry, when the loaded blocks are known to be rows of the whole tables: the perceptron's formula for
    table row n. -/
theorem payV_block (X : (⟨2, ![50000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal)
    (x0 : Vec Ideal S2000x64 .f32) (x1 : Vec Ideal S64x128 .f32) (x2 : Vec Ideal S1x128 .f32)
    (x3 : Vec Ideal S128x64 .f32) (x4 : Vec Ideal S1x64 .f32) (p : Fin 2000) (q : Fin 64) (n : Fin 50000)
    (h0 : ∀ d : Fin 64, x0 (ix2 p d) = X (ix2 n d)) (h1 : ∀ (d : Fin 64) (k : Fin 128), x1 (ix2 d k) = W1 (ix2 d k))
    (h2 : ∀ k : Fin 128, x2 (ix2 0 k) = b1 (ix1 k)) (h3 : ∀ k : Fin 128, x3 (ix2 k q) = W2 (ix2 k q))
    (h4 : x4 (ix2 0 q) = b2 (ix1 q)) :
    k0_pay1 (F := Ideal) x0 x1 x2 x3 x4 (ix2 p q) = Cert.Spec.mlpAt X W1 b1 W2 b2 n q := by
  rw [payV_apply]
  unfold Cert.Spec.mlpAt
  simp only [h0, h1, h2, h3, h4]

variable (m : (ℓ : Loc nD τ sig) → Buf (Elt Ideal) ℓ) (ρ : Dev nD → PrngReg)

/-! What the first launch finds in its windows' arrays: the node table and the two weight matrices are arguments no
    host operation writes; the two bias rows are the bias vectors laid out as one-row tables. -/

theorem entryV_x (c : Dev nD) : (V1 m ρ c main_arg0 : S50000x64.Idx → EReal) = xv m c :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entryV_w1 (c : Dev nD) : (V1 m ρ c main_arg2 : S64x128.Idx → EReal) = w1v m c :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entryV_w2 (c : Dev nD) : (V1 m ρ c main_arg4 : S128x64.Idx → EReal) = w2v m c :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entryV_b1 (c : Dev nD) : (V1 m ρ c main_v0 : S1x128.Idx → EReal) = shapeCast S1x128 (b1v m c) shapeCasts_S128_S1x128 := by
  show StableHlo.after hostOps0 _ (Proc.devRef .tc main_v0) = _
  after_results
  rfl
theorem entryV_b2 (c : Dev nD) : (V1 m ρ c main_v1 : S1x64.Idx → EReal) = shapeCast S1x64 (b2v m c) shapeCasts_S64_S1x64 := by
  show StableHlo.after hostOps0 _ (Proc.devRef .tc main_v1) = _
  after_results
  rfl

/-- The perceptron of the node table, as the launch's output array is to hold it. -/
abbrev tableV (c : Dev nD) : S50000x64.Idx → EReal :=
  Cert.Spec.mlpTable (xv m c) (w1v m c) (b1v m c) (w2v m c) (b2v m c)

/-- The printed index maps over the grid: the node table's and the output's blocks are block t of the rows,
    every other window is its whole array. -/
theorem gridV : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is rows 2000·t … 2000·t + 1999 of the perceptron of the node table. -/
theorem flushedV (c : Dev nD) (t : Fin cfg0.N) :
    (dat0 (V1 m ρ) c).flushed 5 t = ((cfg0.win 5).blk t).view.read (Elt Ideal) (tableV m c) := by
  show (cfg0.win 5).cut (grid0.coords t) ((dat0 (V1 m ρ) c).after 5 t) = _
  rw [after0_5]
  unfold out0_5
  rw [View.canon_unit_zero hz]
  simp only [View.ld_unit_zero (S := S2000x64) hz, View.ld_unit_zero (S := S64x128) hz, View.ld_unit_zero (S := S1x128) hz,
    View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  obtain ⟨e00, e01, e10, e11, e20, e21, e30, e31, e40, e41, e50, e51⟩ := gridV t
  have hN : cfg0.N = 25 := N_0
  have ht : t.val < 25 := hN ▸ t.isLt
  have hn : t.val * 2000 + p.val < 50000 := by have := p.isLt; omega
  have hout : ((cfg0.win 5).blk t).view.emb (ix2 p q) = ix2 (⟨t.val * 2000 + p.val, hn⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 64 + 1 * q.val = q.val; omega
  show k0_pay1 (F := Ideal) (iblk0 (V1 m ρ) c 0 t) (iblk0 (V1 m ρ) c 1 t) (iblk0 (V1 m ρ) c 2 t) (iblk0 (V1 m ρ) c 3 t)
      (iblk0 (V1 m ρ) c 4 t) (ix2 p q) = tableV m c (((cfg0.win 5).blk t).view.emb (ix2 p q))
  rw [hout]
  refine payV_block (xv m c) (w1v m c) (b1v m c) (w2v m c) (b2v m c) (iblk0 (V1 m ρ) c 0 t) (iblk0 (V1 m ρ) c 1 t)
    (iblk0 (V1 m ρ) c 2 t) (iblk0 (V1 m ρ) c 3 t) (iblk0 (V1 m ρ) c 4 t) p q ⟨t.val * 2000 + p.val, hn⟩ ?_ ?_ ?_ ?_ ?_
  · intro d
    show V1 m ρ c main_arg0 (((cfg0.win 0).blk t).view.emb (ix2 p d)) = _
    refine (congrFun (entryV_x m ρ c) _).trans (congrArg (xv m c) ?_)
    funext a; apply Fin.ext
    match a with
    | ⟨0, _⟩ => show win0_0.index t (0 : Fin 2) * 2000 + 1 * p.val = t.val * 2000 + p.val; omega
    | ⟨1, _⟩ => show win0_0.index t (1 : Fin 2) * 64 + 1 * d.val = d.val; omega
  · intro d k
    show V1 m ρ c main_arg2 (((cfg0.win 1).blk t).view.emb (ix2 d k)) = _
    refine (congrFun (entryV_w1 m ρ c) _).trans (congrArg (w1v m c) ?_)
    funext a; apply Fin.ext
    match a with
    | ⟨0, _⟩ => show win0_1.index t (0 : Fin 2) * 64 + 1 * d.val = d.val; omega
    | ⟨1, _⟩ => show win0_1.index t (1 : Fin 2) * 128 + 1 * k.val = k.val; omega
  · intro k
    show V1 m ρ c main_v0 (((cfg0.win 2).blk t).view.emb (ix2 0 k)) = _
    refine (congrFun (entryV_b1 m ρ c) _).trans ?_
    refine (congrArg (shapeCast S1x128 (b1v m c) shapeCasts_S128_S1x128) (?_ : _ = ix2 (0 : Fin 1) k)).trans
      (shapeCast_a_1a_apply (b1v m c) shapeCasts_S128_S1x128 0 k)
    funext a; apply Fin.ext
    match a with
    | ⟨0, _⟩ => show win0_2.index t (0 : Fin 2) * 1 + 1 * 0 = 0; omega
    | ⟨1, _⟩ => show win0_2.index t (1 : Fin 2) * 128 + 1 * k.val = k.val; omega
  · intro k
    show V1 m ρ c main_arg4 (((cfg0.win 3).blk t).view.emb (ix2 k q)) = _
    refine (congrFun (entryV_w2 m ρ c) _).trans (congrArg (w2v m c) ?_)
    funext a; apply Fin.ext
    match a with
    | ⟨0, _⟩ => show win0_3.index t (0 : Fin 2) * 128 + 1 * k.val = k.val; omega
    | ⟨1, _⟩ => show win0_3.index t (1 : Fin 2) * 64 + 1 * q.val = q.val; omega
  · show V1 m ρ c main_v1 (((cfg0.win 4).blk t).view.emb (ix2 0 q)) = _
    refine (congrFun (entryV_b2 m ρ c) _).trans ?_
    refine (congrArg (shapeCast S1x64 (b2v m c) shapeCasts_S64_S1x64) (?_ : _ = ix2 (0 : Fin 1) q)).trans
      (shapeCast_a_1a_apply (b2v m c) shapeCasts_S64_S1x64 0 q)
    funext a; apply Fin.ext
    match a with
    | ⟨0, _⟩ => show win0_4.index t (0 : Fin 2) * 1 + 1 * 0 = 0; omega
    | ⟨1, _⟩ => show win0_4.index t (1 : Fin 2) * 64 + 1 * q.val = q.val; omega

/-- An entry of the output array lies in point t's block when its row is among the block's 2000 rows. -/
theorem mem_blkV (t : Fin cfg0.N) (i : S50000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v2).slice (win0_5.rect t)).set ↔ _
  rw [View.set_slice_whole, Rect.mem_set_unit]
  exact Iff.rfl

/-- The 25 blocks tile the 50000 rows: row r is written by point r / 2000. -/
theorem coverV (i : S50000x64.Idx) :
    ∃ t : Fin cfg0.N, (cfg0.win 5).flush t = true ∧ i ∈ ((cfg0.win 5).blk t).view.set := by
  have hN : cfg0.N = 25 := N_0
  have hi0 : (i 0).val < 50000 := idx2_lt0 i
  have hi1 : (i 1).val < 64 := idx2_lt1 i
  have ht : (i 0).val / 2000 < cfg0.N := by rw [hN]; omega
  refine ⟨⟨(i 0).val / 2000, ht⟩, flush0_5 _, ?_⟩
  rw [mem_blkV]
  obtain ⟨-, -, -, -, -, -, -, -, -, -, e50, e51⟩ := gridV ⟨(i 0).val / 2000, ht⟩
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 64 ≤ (i 1).val
      ∧ (i 1).val < win0_5.index ⟨(i 0).val / 2000, ht⟩ (1 : Fin 2) * 64 + 64
    rw [e51]
    omega

/-- So after the 25 write-backs the output array is the perceptron of the node table. -/
theorem arrV (c : Dev nD) : (dat0 (V1 m ρ) c).arrAt 5 cfg0.N = tableV m c :=
  (dat0 (V1 m ρ) c).arrAt_eq_of_cover 5 (tableV m c) (fun t _ => flushedV m ρ c t) coverV

/-! # The second launch: the colour table, one block of all 256 rows -/

/-! The product of a [256,64] table by a [64,128] matrix, read at an entry: row times column. -/

theorem mmCa_lhs0 (i : S256x128.Idx) (q : dot_S256x64_S64x128_S256x128_1_0_0_1_n_n.contr.Idx) :
    (dot_S256x64_S64x128_S256x128_1_0_0_1_n_n.lhsIdx i q 0).val = (i 0).val := by
  unfold DotDims.lhsIdx
  rw [dif_neg (show ¬(0 : Fin S256x64.rank) ∈ dot_S256x64_S64x128_S256x128_1_0_0_1_n_n.lhsBatch by decide), dif_pos (show (0 : Fin S256x64.rank) ∈ dot_S256x64_S64x128_S256x128_1_0_0_1_n_n.lhsNonContracting by decide)]
  rfl
theorem mmCa_lhs1 (i : S256x128.Idx) (q : dot_S256x64_S64x128_S256x128_1_0_0_1_n_n.contr.Idx) :
    (dot_S256x64_S64x128_S256x128_1_0_0_1_n_n.lhsIdx i q 1).val = (q ⟨0, by decide⟩).val :=
  dot_S256x64_S64x128_S256x128_1_0_0_1_n_n.lhsIdx_val_of_single rfl i q
theorem mmCa_rhs0 (i : S256x128.Idx) (q : dot_S256x64_S64x128_S256x128_1_0_0_1_n_n.contr.Idx) :
    (dot_S256x64_S64x128_S256x128_1_0_0_1_n_n.rhsIdx i q 0).val = (q ⟨0, by decide⟩).val :=
  dot_S256x64_S64x128_S256x128_1_0_0_1_n_n.rhsIdx_val_of_single rfl i q
theorem mmCa_rhs1 (i : S256x128.Idx) (q : dot_S256x64_S64x128_S256x128_1_0_0_1_n_n.contr.Idx) :
    (dot_S256x64_S64x128_S256x128_1_0_0_1_n_n.rhsIdx i q 1).val = (i 1).val := by
  unfold DotDims.rhsIdx
  rw [dif_neg (show ¬(1 : Fin S64x128.rank) ∈ dot_S256x64_S64x128_S256x128_1_0_0_1_n_n.rhsBatch by decide), dif_pos (show (1 : Fin S64x128.rank) ∈ dot_S256x64_S64x128_S256x128_1_0_0_1_n_n.rhsNonContracting by decide)]
  rfl

theorem mmCa_apply {φ₁ φ₂ : FTy} (l : FVec Ideal S256x64 φ₁) (r : FVec Ideal S64x128 φ₂) (p : Fin 256) (k : Fin 128) :
    matmul dot_S256x64_S64x128_S256x128_1_0_0_1_n_n none l r (constant (F := Ideal) S256x128 .f32 0x00000000#32) (ix2 p k)
      = ∑ d : Fin 64, l (ix2 p d) * r (ix2 d k) := by
  simp only [matmul]
  rw [Ideal.matmul_constant_zero_apply, ← Equiv.sum_comp (ValueIdx.contrEquiv1 dot_S256x64_S64x128_S256x128_1_0_0_1_n_n 64 rfl rfl).symm]
  refine Finset.sum_congr rfl fun d _ => ?_
  have hk := ValueIdx.contrEquiv1_symm_val dot_S256x64_S64x128_S256x128_1_0_0_1_n_n 64 rfl rfl d
  have el : dot_S256x64_S64x128_S256x128_1_0_0_1_n_n.lhsIdx (ix2 p k) ((ValueIdx.contrEquiv1 dot_S256x64_S64x128_S256x128_1_0_0_1_n_n 64 rfl rfl).symm d) = ix2 p d := funext fun a => Fin.ext (by
    match a with
    | ⟨0, _⟩ => exact mmCa_lhs0 _ _
    | ⟨1, _⟩ => exact (mmCa_lhs1 _ _).trans hk)
  have er : dot_S256x64_S64x128_S256x128_1_0_0_1_n_n.rhsIdx (ix2 p k) ((ValueIdx.contrEquiv1 dot_S256x64_S64x128_S256x128_1_0_0_1_n_n 64 rfl rfl).symm d) = ix2 d k := funext fun a => Fin.ext (by
    match a with
    | ⟨0, _⟩ => exact (mmCa_rhs0 _ _).trans hk
    | ⟨1, _⟩ => exact mmCa_rhs1 _ _)
  rw [el, er]

/-! The product of a [256,128] table by a [128,64] matrix, read at an entry: row times column. -/

theorem mmCb_lhs0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem mmCb_lhs1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem mmCb_rhs0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem mmCb_rhs1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

theorem mmCb_apply {φ₁ φ₂ : FTy} (l : FVec Ideal S256x128 φ₁) (r : FVec Ideal S128x64 φ₂) (p : Fin 256) (k : Fin 64) :
    matmul dot_S256x128_S128x64_S256x64_1_0_0_1_n_n none l r (constant (F := Ideal) S256x64 .f32 0x00000000#32) (ix2 p k)
      = ∑ d : Fin 128, l (ix2 p d) * r (ix2 d k) := by
  simp only [matmul]
  rw [Ideal.matmul_constant_zero_apply, ← Equiv.sum_comp (ValueIdx.contrEquiv1 dot_S256x128_S128x64_S256x64_1_0_0_1_n_n 128 rfl rfl).symm]
  refine Finset.sum_congr rfl fun d _ => ?_
  have hk := ValueIdx.contrEquiv1_symm_val dot_S256x128_S128x64_S256x64_1_0_0_1_n_n 128 rfl rfl d
  have el : dot_S256x128_S128x64_S256x64_1_0_0_1_n_n.lhsIdx (ix2 p k) ((ValueIdx.contrEquiv1 dot_S256x128_S128x64_S256x64_1_0_0_1_n_n 128 rfl rfl).symm d) = ix2 p d := funext fun a => Fin.ext (by
    match a with
    | ⟨0, _⟩ => exact mmCb_lhs0 _ _
    | ⟨1, _⟩ => exact (mmCb_lhs1 _ _).trans hk)
  have er : dot_S256x128_S128x64_S256x64_1_0_0_1_n_n.rhsIdx (ix2 p k) ((ValueIdx.contrEquiv1 dot_S256x128_S128x64_S256x64_1_0_0_1_n_n 128 rfl rfl).symm d) = ix2 d k := funext fun a => Fin.ext (by
    match a with
    | ⟨0, _⟩ => exact (mmCb_rhs0 _ _).trans hk
    | ⟨1, _⟩ => exact mmCb_rhs1 _ _)
  rw [el, er]

/-- The body's result at entry (p, q) of its block: the second product's row-times-column sum over the clipped
    first layer, plus the second bias. -/
theorem payC_apply (v0 : Vec Ideal S256x64 .f32) (v2 : Vec Ideal S64x128 .f32) (v5 : Vec Ideal S1x128 .f32)
    (v12 : Vec Ideal S128x64 .f32) (v15 : Vec Ideal S1x64 .f32) (p : Fin 256) (q : Fin 64) :
    k1_pay1 (F := Ideal) v0 v2 v5 v12 v15 (ix2 p q)
      = (∑ k : Fin 128, max ((∑ d : Fin 64, v0 (ix2 p d) * v2 (ix2 d k)) + v5 (ix2 0 k)) Cert.Spec.z * v12 (ix2 k q))
        + v15 (ix2 0 q) := by
  unfold k1_pay1
  rw [addf_apply, mmCb_apply, spread_row_apply, shapeCast_self v15 shapeCasts_S1x64_S1x64]
  refine congrArg (· + v15 (ix2 0 q)) ?_
  refine Finset.sum_congr rfl fun k _ => ?_
  rw [truncf_apply, truncf_apply, maximumf_apply, addf_apply, mmCa_apply, spread_row_apply,
    shapeCast_self v5 shapeCasts_S1x128_S1x128, broadcast_apply]
  rfl

/-- The same entry, when the loaded blocks are known to be rows of the whole tables: the perceptron's formula for
    table row n. -/
theorem payC_block (X : (⟨2, ![256, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal)
    (x0 : Vec Ideal S256x64 .f32) (x1 : Vec Ideal S64x128 .f32) (x2 : Vec Ideal S1x128 .f32)
    (x3 : Vec Ideal S128x64 .f32) (x4 : Vec Ideal S1x64 .f32) (p : Fin 256) (q : Fin 64) (n : Fin 256)
    (h0 : ∀ d : Fin 64, x0 (ix2 p d) = X (ix2 n d)) (h1 : ∀ (d : Fin 64) (k : Fin 128), x1 (ix2 d k) = W1 (ix2 d k))
    (h2 : ∀ k : Fin 128, x2 (ix2 0 k) = b1 (ix1 k)) (h3 : ∀ k : Fin 128, x3 (ix2 k q) = W2 (ix2 k q))
    (h4 : x4 (ix2 0 q) = b2 (ix1 q)) :
    k1_pay1 (F := Ideal) x0 x1 x2 x3 x4 (ix2 p q) = Cert.Spec.mlpAt X W1 b1 W2 b2 n q := by
  rw [payC_apply]
  unfold Cert.Spec.mlpAt
  simp only [h0, h1, h2, h3, h4]

/-! What the second launch finds in its windows' arrays. The colour table, its weight matrices and its bias vectors
    are arguments that neither the first launch (they are none of its windows' arrays) nor a host operation
    writes, so they are still as launched; the two bias rows are the bias vectors laid out as one-row tables. -/

theorem kept_xc (c : Dev nD) : (W2 m ρ c (Proc.devRef .tc main_arg1) : S256x64.Idx → EReal) = xc m c :=
  (W2_of_ne m ρ c main_arg1 (by decide)).trans
    (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem kept_w1c (c : Dev nD) : (W2 m ρ c (Proc.devRef .tc main_arg6) : S64x128.Idx → EReal) = w1c m c :=
  (W2_of_ne m ρ c main_arg6 (by decide)).trans
    (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem kept_b1c (c : Dev nD) : (W2 m ρ c (Proc.devRef .tc main_arg7) : S128.Idx → EReal) = b1c m c :=
  (W2_of_ne m ρ c main_arg7 (by decide)).trans
    (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem kept_w2c (c : Dev nD) : (W2 m ρ c (Proc.devRef .tc main_arg8) : S128x64.Idx → EReal) = w2c m c :=
  (W2_of_ne m ρ c main_arg8 (by decide)).trans
    (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem kept_b2c (c : Dev nD) : (W2 m ρ c (Proc.devRef .tc main_arg9) : S64.Idx → EReal) = b2c m c :=
  (W2_of_ne m ρ c main_arg9 (by decide)).trans
    (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem entryC_x (c : Dev nD) : (V3 m ρ c main_arg1 : S256x64.Idx → EReal) = xc m c :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (kept_xc m ρ c)
theorem entryC_w1 (c : Dev nD) : (V3 m ρ c main_arg6 : S64x128.Idx → EReal) = w1c m c :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (kept_w1c m ρ c)
theorem entryC_w2 (c : Dev nD) : (V3 m ρ c main_arg8 : S128x64.Idx → EReal) = w2c m c :=
  (StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (kept_w2c m ρ c)
theorem entryC_b1 (c : Dev nD) : (V3 m ρ c main_v3 : S1x128.Idx → EReal) = shapeCast S1x128 (b1c m c) shapeCasts_S128_S1x128 := by
  show StableHlo.after hostOps1 _ (Proc.devRef .tc main_v3) = _
  after_results
  exact congrArg (fun x : S128.Idx → EReal => shapeCast S1x128 x shapeCasts_S128_S1x128) (kept_b1c m ρ c)
theorem entryC_b2 (c : Dev nD) : (V3 m ρ c main_v4 : S1x64.Idx → EReal) = shapeCast S1x64 (b2c m c) shapeCasts_S64_S1x64 := by
  show StableHlo.after hostOps1 _ (Proc.devRef .tc main_v4) = _
  after_results
  exact congrArg (fun x : S64.Idx → EReal => shapeCast S1x64 x shapeCasts_S64_S1x64) (kept_b2c m ρ c)

/-- The perceptron of the colour table, as the launch's output array is to hold it. -/
abbrev tableC (c : Dev nD) : S256x64.Idx → EReal :=
  Cert.Spec.mlpTable (xc m c) (w1c m c) (b1c m c) (w2c m c) (b2c m c)

/-- The printed index maps over the grid: the colour table's and the output's blocks are block t of the rows,
    every other window is its whole array. -/
theorem gridC : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the one point writes back is the perceptron of the whole colour table (its block is all 256 rows). -/
theorem flushedC (c : Dev nD) (t : Fin cfg1.N) :
    (dat1 (V3 m ρ) c).flushed 5 t = ((cfg1.win 5).blk t).view.read (Elt Ideal) (tableC m c) := by
  show (cfg1.win 5).cut (grid1.coords t) ((dat1 (V3 m ρ) c).after 5 t) = _
  rw [after1_5]
  unfold out1_5
  rw [View.canon_unit_zero hz]
  simp only [View.ld_unit_zero (S := S256x64) hz, View.ld_unit_zero (S := S64x128) hz, View.ld_unit_zero (S := S1x128) hz,
    View.ld_unit_zero (S := S128x64) hz, View.ld_unit_zero (S := S1x64) hz]
  funext j
  obtain ⟨p, q, rfl⟩ : ∃ (p : Fin 256) (q : Fin 64), j = ix2 p q := ⟨j 0, j 1, eq_ix2 j⟩
  obtain ⟨e00, e01, e10, e11, e20, e21, e30, e31, e40, e41, e50, e51⟩ := gridC t
  have hN : cfg1.N = 1 := N_1
  have ht : t.val < 1 := hN ▸ t.isLt
  have hn : t.val * 256 + p.val < 256 := by have := p.isLt; omega
  have hout : ((cfg1.win 5).blk t).view.emb (ix2 p q) = ix2 (⟨t.val * 256 + p.val, hn⟩ : Fin 256) q := by
    funext a; apply Fin.ext
    match a with
    | ⟨0, _⟩ => show win1_5.index t (0 : Fin 2) * 256 + 1 * p.val = t.val * 256 + p.val; omega
    | ⟨1, _⟩ => show win1_5.index t (1 : Fin 2) * 64 + 1 * q.val = q.val; omega
  show k1_pay1 (F := Ideal) (iblk1 (V3 m ρ) c 0 t) (iblk1 (V3 m ρ) c 1 t) (iblk1 (V3 m ρ) c 2 t) (iblk1 (V3 m ρ) c 3 t)
      (iblk1 (V3 m ρ) c 4 t) (ix2 p q) = tableC m c (((cfg1.win 5).blk t).view.emb (ix2 p q))
  rw [hout]
  refine payC_block (xc m c) (w1c m c) (b1c m c) (w2c m c) (b2c m c) (iblk1 (V3 m ρ) c 0 t) (iblk1 (V3 m ρ) c 1 t)
    (iblk1 (V3 m ρ) c 2 t) (iblk1 (V3 m ρ) c 3 t) (iblk1 (V3 m ρ) c 4 t) p q ⟨t.val * 256 + p.val, hn⟩ ?_ ?_ ?_ ?_ ?_
  · intro d
    show V3 m ρ c main_arg1 (((cfg1.win 0).blk t).view.emb (ix2 p d)) = _
    refine (congrFun (entryC_x m ρ c) _).trans (congrArg (xc m c) ?_)
    funext a; apply Fin.ext
    match a with
    | ⟨0, _⟩ => show win1_0.index t (0 : Fin 2) * 256 + 1 * p.val = t.val * 256 + p.val; omega
    | ⟨1, _⟩ => show win1_0.index t (1 : Fin 2) * 64 + 1 * d.val = d.val; omega
  · intro d k
    show V3 m ρ c main_arg6 (((cfg1.win 1).blk t).view.emb (ix2 d k)) = _
    refine (congrFun (entryC_w1 m ρ c) _).trans (congrArg (w1c m c) ?_)
    funext a; apply Fin.ext
    match a with
    | ⟨0, _⟩ => show win1_1.index t (0 : Fin 2) * 64 + 1 * d.val = d.val; omega
    | ⟨1, _⟩ => show win1_1.index t (1 : Fin 2) * 128 + 1 * k.val = k.val; omega
  · intro k
    show V3 m ρ c main_v3 (((cfg1.win 2).blk t).view.emb (ix2 0 k)) = _
    refine (congrFun (entryC_b1 m ρ c) _).trans ?_
    refine (congrArg (shapeCast S1x128 (b1c m c) shapeCasts_S128_S1x128) (?_ : _ = ix2 (0 : Fin 1) k)).trans
      (shapeCast_a_1a_apply (b1c m c) shapeCasts_S128_S1x128 0 k)
    funext a; apply Fin.ext
    match a with
    | ⟨0, _⟩ => show win1_2.index t (0 : Fin 2) * 1 + 1 * 0 = 0; omega
    | ⟨1, _⟩ => show win1_2.index t (1 : Fin 2) * 128 + 1 * k.val = k.val; omega
  · intro k
    show V3 m ρ c main_arg8 (((cfg1.win 3).blk t).view.emb (ix2 k q)) = _
    refine (congrFun (entryC_w2 m ρ c) _).trans (congrArg (w2c m c) ?_)
    funext a; apply Fin.ext
    match a with
    | ⟨0, _⟩ => show win1_3.index t (0 : Fin 2) * 128 + 1 * k.val = k.val; omega
    | ⟨1, _⟩ => show win1_3.index t (1 : Fin 2) * 64 + 1 * q.val = q.val; omega
  · show V3 m ρ c main_v4 (((cfg1.win 4).blk t).view.emb (ix2 0 q)) = _
    refine (congrFun (entryC_b2 m ρ c) _).trans ?_
    refine (congrArg (shapeCast S1x64 (b2c m c) shapeCasts_S64_S1x64) (?_ : _ = ix2 (0 : Fin 1) q)).trans
      (shapeCast_a_1a_apply (b2c m c) shapeCasts_S64_S1x64 0 q)
    funext a; apply Fin.ext
    match a with
    | ⟨0, _⟩ => show win1_4.index t (0 : Fin 2) * 1 + 1 * 0 = 0; omega
    | ⟨1, _⟩ => show win1_4.index t (1 : Fin 2) * 64 + 1 * q.val = q.val; omega

/-- An entry of the output array lies in point t's block when its row is among the block's 256 rows. -/
theorem mem_blkC (t : Fin cfg1.N) (i : S256x64.Idx) :
    i ∈ ((cfg1.win 5).blk t).view.set ↔ ∀ a : Fin 2, win1_5.index t a * S256x64.size a ≤ (i a).val
      ∧ (i a).val < win1_5.index t a * S256x64.size a + S256x64.size a := by
  show i ∈ ((View.whole main_v5).slice (win1_5.rect t)).set ↔ _
  rw [View.set_slice_whole, Rect.mem_set_unit]
  exact Iff.rfl

/-- The one block is the whole array: every row is written by point 0. -/
theorem coverC (i : S256x64.Idx) :
    ∃ t : Fin cfg1.N, (cfg1.win 5).flush t = true ∧ i ∈ ((cfg1.win 5).blk t).view.set := by
  have hN : cfg1.N = 1 := N_1
  have hi0 : (i 0).val < 256 := idx2_lt0 i
  have hi1 : (i 1).val < 64 := idx2_lt1 i
  have ht : (i 0).val / 256 < cfg1.N := by rw [hN]; omega
  refine ⟨⟨(i 0).val / 256, ht⟩, flush1_5 _, ?_⟩
  rw [mem_blkC]
  obtain ⟨-, -, -, -, -, -, -, -, -, -, e50, e51⟩ := gridC ⟨(i 0).val / 256, ht⟩
  intro a
  match a with
  | ⟨0, _⟩ =>
    show win1_5.index ⟨(i 0).val / 256, ht⟩ (0 : Fin 2) * 256 ≤ (i 0).val
      ∧ (i 0).val < win1_5.index ⟨(i 0).val / 256, ht⟩ (0 : Fin 2) * 256 + 256
    rw [e50]
    show (i 0).val / 256 * 256 ≤ (i 0).val ∧ (i 0).val < (i 0).val / 256 * 256 + 256
    omega
  | ⟨1, _⟩ =>
    show win1_5.index ⟨(i 0).val / 256, ht⟩ (1 : Fin 2) * 64 ≤ (i 1).val
      ∧ (i 1).val < win1_5.index ⟨(i 0).val / 256, ht⟩ (1 : Fin 2) * 64 + 64
    rw [e51]
    omega

/-- So after the one write-back the output array is the perceptron of the colour table. -/
theorem arrC (c : Dev nD) : (dat1 (V3 m ρ) c).arrAt 5 cfg1.N = tableC m c :=
  (dat1 (V3 m ρ) c).arrAt_eq_of_cover 5 (tableC m c) (fun t _ => flushedC m ρ c t) coverC

end Mlp

/-! # The two tables after their launches -/

variable (m : (ℓ : Loc nD τ sig) → Buf (Elt Ideal) ℓ) (ρ : Dev nD → PrngReg)

/-- After the first launch the node message table holds the perceptron of every node row. -/
theorem table_v (c : Dev nD) :
    (W2 m ρ c (Proc.devRef .tc main_v2) : S50000x64.Idx → EReal)
      = Cert.Spec.mlpTable (xv m c) (w1v m c) (b1v m c) (w2v m c) (b2v m c) :=
  (W2_arr m ρ c 5).trans (Mlp.arrV m ρ c)

/-- After the second launch the colour message table holds the perceptron of every colour row. -/
theorem table_c (c : Dev nD) :
    (W4 m ρ c (Proc.devRef .tc main_v5) : S256x64.Idx → EReal)
      = Cert.Spec.mlpTable (xc m c) (w1c m c) (b1c m c) (w2c m c) (b2c m c) :=
  (W4_arr m ρ c 5).trans (Mlp.arrC m ρ c)

end Cert.KernelIdeal.Val

end
-- ==== Proof.Take.lean ====
/-
  The two row gathers of the message tables. Each is written with a guard: a row whose index (after a
  negative index has had the table's height added) is not a row of the table is filled with a junk word
  instead of being read. When every index names a row, the guard holds everywhere and the guarded gather is
  the plain gather of the table's rows.

  How it is shown. The guard of an edge is the conjunction, over the one entry of that edge's row of the index
  column, of "at least 0" and "at most the last row", started at 1; a conjunction started at 1 of bits that are all 1
  is 1 (`reduce_andi_ones`), and an index that names a row passes both comparisons and is not moved by the step
  that adds the table's height to a negative index (`idxV_apply`, `guardEntryV_eq_one` and their colour-table
  twins). The operations' composed term is then taken apart from the outside in: the select under an all-ones
  condition is its first operand, and that operand is the plain gather at the same index column.
-/
import proofs.«430758_j9096740733260_2_alg».proof.Proof.Args
import Idealize.ShloMosaic.Lib.Pipeline.Value
import Idealize.ShloMosaic.Lib.StableHlo.Predicate
import Idealize.ShloMosaic.Lib.StableHlo.Run
import Idealize.ShloMosaic.Lib.Affine
import Idealize.ShloMosaic.Lib.ValueIdx
import Idealize.ShloMosaic.PureOps.Reduce

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## Words: an index that names a row passes the guard unchanged -/

/-- A word that is not negative (read signed) is not below zero. -/
theorem slt_zero_eq_zero (x : BitVec 32) (hx : 0 ≤ x.toInt) : IntOp.cmpi .slt x 0#32 = 0#1 :=
  ValueIdx.eq_zero_of_ne_one fun e => by
    have h0 : (0#32 : BitVec 32).toInt = 0 := by decide
    have := IntOp.cmpi_slt.1 e
    omega

/-- A word that is not negative (read signed) is at least zero. -/
theorem sge_zero_eq_one (x : BitVec 32) (hx : 0 ≤ x.toInt) : IntOp.cmpi .sge x 0#32 = 1#1 := by
  have h0 : (0#32 : BitVec 32).toInt = 0 := by decide
  exact IntOp.cmpi_sge.2 (by omega)

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem a hn)

/-- A reduction by `and`, started at 1, of an array whose every entry is 1 is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ## Two general facts -/

/-- A select whose condition is one everywhere is its first operand. -/
theorem select_of_ones {s : Shape} {α : Type} (M : IVec s 1) (G N : s.Idx → α) (hM : ∀ j, M j = 1#1) :
    select M G N = G :=
  funext fun j => by rw [ValueIdx.select_apply, hM j, ValueIdx.select_one]

/-- Contents carried to a buffer's own type and back are the contents. -/
theorem ofBuf_toBuf {T : BufTy} {Val : EltTy → Type} (x : StableHlo.TRef sig T) (v : T.Contents Val) :
    x.ofBuf (x.toBuf v) = v := by
  obtain ⟨r, h, _, _⟩ := x
  subst h
  rfl

/-! ## The node table's gather: its index column and its guard -/

section NodeTable

/-- The wrapped index column, read at an edge whose index is not negative: the index itself. -/
theorem idxV_apply (x : IVec S800000 32) (p : Fin 800000) (q : Fin 1) (hx : 0 ≤ (x (ValueIdx.ix1 p)).toInt) :
    idxV x (ValueIdx.ix2 p q) = x (ValueIdx.ix1 p) := by
  unfold idxV
  refine (broadcastInDim_apply ![0] bcast_S800000_S800000x1_0 _ (ValueIdx.ix2 p q) (ValueIdx.ix1 p)
    (fun a => match a with | ⟨0, _⟩ => rfl)).trans ?_
  show Scalar.select (IntOp.cmpi .slt (x (ValueIdx.ix1 p)) 0#32) (IntOp.addi (x (ValueIdx.ix1 p)) 50000#32)
    (x (ValueIdx.ix1 p)) = x (ValueIdx.ix1 p)
  rw [slt_zero_eq_zero _ hx, ValueIdx.select_zero]

/-- With every index a row of the table, so is every wrapped index. -/
theorem idxV_inRange (x : IVec S800000 32) (h : Cert.Spec.InRange 50000 x) (e : S800000x1.Idx) :
    0 ≤ (idxV x e).toInt ∧ (idxV x e).toInt < 50000 := by
  obtain ⟨p, q, rfl⟩ : ∃ (p : Fin 800000) (q : Fin 1), e = ValueIdx.ix2 p q := ⟨e 0, e 1, ValueIdx.eq_ix2 e⟩
  rw [idxV_apply x p q (h _).1]; exact h _

/-- One entry of the guard's conjunction: "the index is at least 0 and at most 49999" holds at an index that is a row of
    the table. -/
theorem guardEntryV_eq_one (i : IVec S800000x1 32) (hi : ∀ e, 0 ≤ (i e).toInt ∧ (i e).toInt < 50000) (e : S800000x1.Idx) :
    andi (cmpi .sge i (broadcastInDim S800000x1 ![] bcast_S_S800000x1 (constantI S_ 32 0#32)))
      (cmpi .sle i (broadcastInDim S800000x1 ![0, 1] bcast_S1x1_S800000x1_0_1
        (broadcastInDim S1x1 ![1] bcast_S1_S1x1_1 (constantI S1 32 49999#32)))) e = 1#1 := by
  show IntOp.andi (IntOp.cmpi .sge (i e) 0#32) (IntOp.cmpi .sle (i e) 49999#32) = 1#1
  have h9 : (49999#32 : BitVec 32).toInt = 49999 := by decide
  exact IntOp.andi_eq_one.2 ⟨sge_zero_eq_one _ (hi e).1, IntOp.cmpi_sle.2 (by have := (hi e).2; omega)⟩

end NodeTable

section NodeRun

variable {F : FTy → Type} [FloatOps F]

set_option maxRecDepth 8192 in
set_option maxHeartbeats 2000000 in
/-- From any contents before the gather's operations, with every index a row of the table: the messages' buffer
    ends at the plain gather of the table's rows. -/
theorem after_take_v (V : Valuation τ sig (Elt F))
    (hx : Cert.Spec.InRange 50000 (V (Proc.devRef .tc main_arg10) : IVec S800000 32)) :
    (StableHlo.after (hostOps2 (F := F)) V (Proc.devRef .tc main_v6) : FVec F S800000x64 .f32)
      = Host.gather gather_S50000x64_S800000x1_S800000x64_1_0_n_n_0_1_164 (V (Proc.devRef .tc main_v2) : FVec F S50000x64 .f32)
          (idxV (V (Proc.devRef .tc main_arg10))) := by
  after_results_simp
  -- the result is a select: under a condition that is one everywhere it is its first operand
  refine (congrArg (StableHlo.TRef.toBuf _) (select_of_ones _ _ _ ?_)).trans ?_
  · -- the condition at entry (p, q) is row p's conjunction, repeated along the columns
    intro j
    obtain ⟨p, q, rfl⟩ : ∃ (p : Fin 800000) (q : Fin 64), j = ValueIdx.ix2 p q := ⟨j 0, j 1, ValueIdx.eq_ix2 j⟩
    refine (congrFun (ofBuf_toBuf _ _) _).trans ?_
    refine (broadcastInDim_apply _ _ _ _ (ValueIdx.ix1 p) (fun a => match a with | ⟨0, _⟩ => rfl)).trans ?_
    refine (congrFun (ofBuf_toBuf _ _) _).trans ?_
    -- the conjunction starts at 1 and meets only 1s: every index is a row of the table
    refine reduce_andi_ones _ _ _ _ _ ?_ fun e => ?_
    · exact congrFun (ofBuf_toBuf _ _) _
    · simp only [StableHlo.TRef.ofBuf, StableHlo.TRef.toBuf, cast_cast, cast_eq]
      refine guardEntryV_eq_one _ ?_ e
      exact fun e => idxV_inRange _ hx e
  · -- the first operand is the gather of the table at the wrapped index column
    refine (congrArg (StableHlo.TRef.toBuf _) (ofBuf_toBuf _ _)).trans ?_
    simp only [StableHlo.TRef.ofBuf, StableHlo.TRef.toBuf, cast_cast, cast_eq]
    rfl

end NodeRun

/-! ## The colour table's gather: its index column and its guard -/

section ColourTable

/-- The wrapped index column, read at an edge whose index is not negative: the index itself. -/
theorem idxC_apply (x : IVec S400000 32) (p : Fin 400000) (q : Fin 1) (hx : 0 ≤ (x (ValueIdx.ix1 p)).toInt) :
    idxC x (ValueIdx.ix2 p q) = x (ValueIdx.ix1 p) := by
  unfold idxC
  refine (broadcastInDim_apply ![0] bcast_S400000_S400000x1_0 _ (ValueIdx.ix2 p q) (ValueIdx.ix1 p)
    (fun a => match a with | ⟨0, _⟩ => rfl)).trans ?_
  show Scalar.select (IntOp.cmpi .slt (x (ValueIdx.ix1 p)) 0#32) (IntOp.addi (x (ValueIdx.ix1 p)) 256#32)
    (x (ValueIdx.ix1 p)) = x (ValueIdx.ix1 p)
  rw [slt_zero_eq_zero _ hx, ValueIdx.select_zero]

/-- With every index a row of the table, so is every wrapped index. -/
theorem idxC_inRange (x : IVec S400000 32) (h : Cert.Spec.InRange 256 x) (e : S400000x1.Idx) :
    0 ≤ (idxC x e).toInt ∧ (idxC x e).toInt < 256 := by
  obtain ⟨p, q, rfl⟩ : ∃ (p : Fin 400000) (q : Fin 1), e = ValueIdx.ix2 p q := ⟨e 0, e 1, ValueIdx.eq_ix2 e⟩
  rw [idxC_apply x p q (h _).1]; exact h _

/-- One entry of the guard's conjunction: "the index is at least 0 and at most 255" holds at an index that is a row of
    the table. -/
theorem guardEntryC_eq_one (i : IVec S400000x1 32) (hi : ∀ e, 0 ≤ (i e).toInt ∧ (i e).toInt < 256) (e : S400000x1.Idx) :
    andi (cmpi .sge i (broadcastInDim S400000x1 ![] bcast_S_S400000x1 (constantI S_ 32 0#32)))
      (cmpi .sle i (broadcastInDim S400000x1 ![0, 1] bcast_S1x1_S400000x1_0_1
        (broadcastInDim S1x1 ![1] bcast_S1_S1x1_1 (constantI S1 32 255#32)))) e = 1#1 := by
  show IntOp.andi (IntOp.cmpi .sge (i e) 0#32) (IntOp.cmpi .sle (i e) 255#32) = 1#1
  have h9 : (255#32 : BitVec 32).toInt = 255 := by decide
  exact IntOp.andi_eq_one.2 ⟨sge_zero_eq_one _ (hi e).1, IntOp.cmpi_sle.2 (by have := (hi e).2; omega)⟩

end ColourTable

section ColourRun

variable {F : FTy → Type} [FloatOps F]

set_option maxRecDepth 8192 in
set_option maxHeartbeats 2000000 in
/-- From any contents before the gather's operations, with every index a row of the table: the messages' buffer
    ends at the plain gather of the table's rows. -/
theorem after_take_c (V : Valuation τ sig (Elt F))
    (hx : Cert.Spec.InRange 256 (V (Proc.devRef .tc main_arg12) : IVec S400000 32)) :
    (StableHlo.after (hostOps2_1 (F := F)) V (Proc.devRef .tc main_v7) : FVec F S400000x64 .f32)
      = Host.gather gather_S256x64_S400000x1_S400000x64_1_0_n_n_0_1_164 (V (Proc.devRef .tc main_v5) : FVec F S256x64 .f32)
          (idxC (V (Proc.devRef .tc main_arg12))) := by
  after_results_simp
  -- the result is a select: under a condition that is one everywhere it is its first operand
  refine (congrArg (StableHlo.TRef.toBuf _) (select_of_ones _ _ _ ?_)).trans ?_
  · -- the condition at entry (p, q) is row p's conjunction, repeated along the columns
    intro j
    obtain ⟨p, q, rfl⟩ : ∃ (p : Fin 400000) (q : Fin 64), j = ValueIdx.ix2 p q := ⟨j 0, j 1, ValueIdx.eq_ix2 j⟩
    refine (congrFun (ofBuf_toBuf _ _) _).trans ?_
    refine (broadcastInDim_apply _ _ _ _ (ValueIdx.ix1 p) (fun a => match a with | ⟨0, _⟩ => rfl)).trans ?_
    refine (congrFun (ofBuf_toBuf _ _) _).trans ?_
    -- the conjunction starts at 1 and meets only 1s: every index is a row of the table
    refine reduce_andi_ones _ _ _ _ _ ?_ fun e => ?_
    · exact congrFun (ofBuf_toBuf _ _) _
    · simp only [StableHlo.TRef.ofBuf, StableHlo.TRef.toBuf, cast_cast, cast_eq]
      refine guardEntryC_eq_one _ ?_ e
      exact fun e => idxC_inRange _ hx e
  · -- the first operand is the gather of the table at the wrapped index column
    refine (congrArg (StableHlo.TRef.toBuf _) (ofBuf_toBuf _ _)).trans ?_
    simp only [StableHlo.TRef.ofBuf, StableHlo.TRef.toBuf, cast_cast, cast_eq]
    rfl

end ColourRun

/-! ## The two gathers in the run -/

/-- No operation and no region before the gathers writes the node index vector: it is still as launched. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg10) := rfl

/-- With every node index in range, the per-edge node messages are the rows of the node message table. -/
theorem take_v (c : Dev nD) (h : Cert.Spec.InRange 50000 (srcv m c)) :
    (W5 m ρ c (Proc.devRef .tc main_v6) : S800000x64.Idx → EReal)
      = Host.gather gather_S50000x64_S800000x1_S800000x64_1_0_n_n_0_1_164
          (W4 m ρ c (Proc.devRef .tc main_v2) : S50000x64.Idx → EReal) (idxV (srcv m c)) := by
  have e := after_take_v (F := Ideal) (W4 m ρ c) (by rw [W4_main_arg10 m ρ c]; exact h)
  rw [W4_main_arg10 m ρ c] at e
  exact e

/-- No operation and no region before the colour gather writes the colour index vector: it is still as launched. -/
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg12) := rfl

/-- With every colour index in range, the per-edge colour messages are the rows of the colour message table. -/
theorem take_c (c : Dev nD) (h : Cert.Spec.InRange 256 (srcc m c)) :
    (W6 m ρ c (Proc.devRef .tc main_v7) : S400000x64.Idx → EReal)
      = Host.gather gather_S256x64_S400000x1_S400000x64_1_0_n_n_0_1_164
          (W5 m ρ c (Proc.devRef .tc main_v5) : S256x64.Idx → EReal) (idxC (srcc m c)) := by
  have e := after_take_c (F := Ideal) (W5 m ρ c) (by rw [W5_main_arg12 m ρ c]; exact h)
  rw [W5_main_arg12 m ρ c] at e
  exact e

end Cert.KernelIdeal.Val

end
-- ==== Proof.Tail.lean ====
/-
  The end of the program: the two message lists are laid end to end (as are their destination indices) and
  scatter-added into a zero array; that array and the node features, both viewed as 25000 rows of 128, go
  through the last launch, which adds them entry by entry and clips below at zero (5000 rows at each of 5
  grid points, the blocks tiling the array); the result is viewed as 50000 rows of 64 again.
-/
import proofs.«430758_j9096740733260_2_alg».proof.Proof.Args
import Idealize.ShloMosaic.Lib.Pipeline.Value

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

namespace Tail

/-! ## The argument arrays the last stretch reads are still as given

No host operation and no earlier region writes an argument array: the node features enter the first perceptron
region only as an input, the two destination-index vectors enter no region at all. -/

/-- The node features after the second perceptron region: as given. -/
theorem W4_arg0 (c : Dev nD) : W4 m ρ c (Proc.devRef .tc main_arg0) = m ((c : Thread nD τ).loc main_arg0) := by
  refine (W4_of_ne m ρ c main_arg0 (by decide)).trans ?_
  show StableHlo.after hostOps1 _ (Proc.devRef .tc main_arg0) = _
  after_results
  refine ((W2_arr m ρ c 0).trans (((dat0 (V1 m ρ) c).arrAt_in 0 rfl _).trans (A_eq0 (V1 m ρ) c 0))).trans ?_
  show StableHlo.after hostOps0 _ (Proc.devRef .tc main_arg0) = _
  after_results

/-- The node edges' destination indices after the second perceptron region: as given. -/
theorem W4_arg11 (c : Dev nD) : W4 m ρ c (Proc.devRef .tc main_arg11) = m ((c : Thread nD τ).loc main_arg11) := by
  refine (W4_of_ne m ρ c main_arg11 (by decide)).trans ?_
  show StableHlo.after hostOps1 _ (Proc.devRef .tc main_arg11) = _
  after_results
  refine (W2_of_ne m ρ c main_arg11 (by decide)).trans ?_
  show StableHlo.after hostOps0 _ (Proc.devRef .tc main_arg11) = _
  after_results

/-- The colour edges' destination indices after the second perceptron region: as given. -/
theorem W4_arg13 (c : Dev nD) : W4 m ρ c (Proc.devRef .tc main_arg13) = m ((c : Thread nD τ).loc main_arg13) := by
  refine (W4_of_ne m ρ c main_arg13 (by decide)).trans ?_
  show StableHlo.after hostOps1 _ (Proc.devRef .tc main_arg13) = _
  after_results
  refine (W2_of_ne m ρ c main_arg13 (by decide)).trans ?_
  show StableHlo.after hostOps0 _ (Proc.devRef .tc main_arg13) = _
  after_results

/-- Nor do the two gathers write them. -/
theorem W6_arg11 (c : Dev nD) : W6 m ρ c (Proc.devRef .tc main_arg11) = m ((c : Thread nD τ).loc main_arg11) := by
  show StableHlo.after hostOps2_1 (StableHlo.after hostOps2 (W4 m ρ c)) (Proc.devRef .tc main_arg11) = _
  after_results
  exact W4_arg11 m ρ c

theorem W6_arg13 (c : Dev nD) : W6 m ρ c (Proc.devRef .tc main_arg13) = m ((c : Thread nD τ).loc main_arg13) := by
  show StableHlo.after hostOps2_1 (StableHlo.after hostOps2 (W4 m ρ c)) (Proc.devRef .tc main_arg13) = _
  after_results
  exact W4_arg13 m ρ c

/-! ## The stretch before the last region, from any contents -/

/-- The stretch of host operations before the last region, from any contents: its second reshape's result is the
    scatter-add (into zeros, at the concatenated destination indices laid out as a column) of the concatenated
    messages, viewed as 25000 rows of 128. -/
theorem agg_of (V : Valuation τ sig (Elt Ideal)) :
    (StableHlo.after hostOps2_2 V (Proc.devRef .tc main_v14) : S25000x128.Idx → EReal)
      = shapeCast S25000x128
          (Host.scatterAdd (F := Ideal) scatter_S50000x64_S1200000x1_S1200000x64_1_0_0_1
            (broadcastInDim S50000x64 ![] bcast_S_S50000x64 (constant (F := Ideal) S_ .f32 0x00000000#32))
            (broadcastInDim S1200000x1 ![0] bcast_S1200000_S1200000x1_0
              (concatenate S1200000 0 [⟨S800000, (V (Proc.devRef .tc main_arg11) : IVec S800000 32)⟩, ⟨S400000, (V (Proc.devRef .tc main_arg13) : IVec S400000 32)⟩] concatenates_S800000_S400000_S1200000_d0))
            (concatenate S1200000x64 0 [⟨S800000x64, (V (Proc.devRef .tc main_v6) : S800000x64.Idx → EReal)⟩,
              ⟨S400000x64, (V (Proc.devRef .tc main_v7) : S400000x64.Idx → EReal)⟩] concatenates_S800000x64_S400000x64_S1200000x64_d0))
          shapeCasts_S50000x64_S25000x128 := by
  after_results
  rfl

/-! ## The last region: 5 grid points, 5000 rows of 128 each -/

theorem hz : (![0, 0] : Fin 2 → Nat) = fun _ => 0 := funext fun a => by fin_cases a <;> rfl

/-- The body's arithmetic on two blocks: their entrywise sum, clipped below at zero (its two reshapes change nothing). -/
theorem pay_eq (x0 x1 : Vec Ideal S5000x128 .f32) :
    k2_pay1 x0 x1 = maximumf (addf x0 x1) (broadcast S5000x128 (Ideal.ofBits .f32 0x00000000#32)) := by
  unfold k2_pay1
  dsimp only
  rw [shapeCast_self, shapeCast_self]
  rfl

/-- The output's block index at a grid point is the point itself along the rows and zero along the columns. -/
theorem idx_out : ∀ t : Fin cfg2.N, win2_2.index t (0 : Fin 2) = t.val ∧ win2_2.index t (1 : Fin 2) = 0 :=
  (by decide +kernel : ∀ t : Fin grid2.N, _)

/-- The three windows move together: at every grid point each input's block index is the output's. -/
theorem idx_same : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2) :=
  (by decide +kernel : ∀ t : Fin grid2.N, _)

/-- So an entry of a block sits at the same place of its array for all three windows. -/
theorem emb0_eq (t : Fin cfg2.N) (j : S5000x128.Idx) :
    (((cfg2.win 0).blk t).view.emb j : S25000x128.Idx) = ((cfg2.win 2).blk t).view.emb j := by
  obtain ⟨e0, e1, -, -⟩ := idx_same t
  funext a; apply Fin.ext
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * (j 1).val = win2_2.index t (1 : Fin 2) * 128 + 1 * (j 1).val; omega

theorem emb1_eq (t : Fin cfg2.N) (j : S5000x128.Idx) :
    (((cfg2.win 1).blk t).view.emb j : S25000x128.Idx) = ((cfg2.win 2).blk t).view.emb j := by
  obtain ⟨-, -, e0, e1⟩ := idx_same t
  funext a; apply Fin.ext
  match a with
  | ⟨0, _⟩ => show win2_1.index t (0 : Fin 2) * 5000 + 1 * (j 0).val = win2_2.index t (0 : Fin 2) * 5000 + 1 * (j 0).val; omega
  | ⟨1, _⟩ => show win2_1.index t (1 : Fin 2) * 128 + 1 * (j 1).val = win2_2.index t (1 : Fin 2) * 128 + 1 * (j 1).val; omega

theorem mem_blk (t : Fin cfg2.N) (i : S25000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v15).slice (win2_2.rect t)).set ↔ _
  rw [View.set_slice_whole, Rect.mem_set_unit]
  exact Iff.rfl

/-- Every row lies in the block of the grid point numbered by the row's quotient by 5000. -/
theorem covered (i : S25000x128.Idx) : ∃ t : Fin cfg2.N, (cfg2.win 2).flush t = true ∧ i ∈ ((cfg2.win 2).blk t).view.set := by
  have hi0 : (i 0).val < 25000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨q0, q1⟩ := idx_out t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

section AnyEntry
-- the last launch from ANY contents of the buffers at its entry: nothing here depends on how they were computed
variable (V : (c : Dev nD) → (b : Ref sig .tc) → Buf (Elt Ideal) ((c : Thread nD τ).loc b))

/-- The two arrays the last launch reads, at their literal shape. -/
abbrev featIn (c : Dev nD) : S25000x128.Idx → EReal := V c main_v13
abbrev aggIn (c : Dev nD) : S25000x128.Idx → EReal := V c main_v14

/-- What a grid point writes back is its block of the whole-array sum clipped at zero. -/
theorem flushed_eq (c : Dev nD) (t : Fin cfg2.N) :
    (dat2 V c).flushed 2 t = ((cfg2.win 2).blk t).view.read (Elt Ideal)
      (maximumf (addf (featIn V c) (aggIn V c)) (broadcast S25000x128 (Ideal.ofBits .f32 0x00000000#32))) := by
  show (cfg2.win 2).cut (grid2.coords t) ((dat2 V c).after 2 t) = _
  rw [after2_2]
  unfold out2_2
  rw [View.canon_unit_zero hz]
  simp only [View.ld_unit_zero (S := S5000x128) hz]
  rw [pay_eq]
  funext j
  show max (featIn V c (((cfg2.win 0).blk t).view.emb j) + aggIn V c (((cfg2.win 1).blk t).view.emb j)) (Ideal.ofBits .f32 0x00000000#32)
     = max (featIn V c (((cfg2.win 2).blk t).view.emb j) + aggIn V c (((cfg2.win 2).blk t).view.emb j)) (Ideal.ofBits .f32 0x00000000#32)
  rw [emb0_eq t j, emb1_eq t j]

/-- The blocks tile the output array, so after the launch it is that sum clipped at zero. -/
theorem combine_of (c : Dev nD) :
    ((dat2 V c).arrAt 2 cfg2.N : S25000x128.Idx → EReal)
      = maximumf (addf (featIn V c) (aggIn V c)) (broadcast S25000x128 (Ideal.ofBits .f32 0x00000000#32)) :=
  (dat2 V c).arrAt_eq_of_cover 2 _ (fun t _ => flushed_eq V c t) (fun i => covered i)

end AnyEntry

end Tail

open Tail

/-- The node features, viewed as 25000 rows of 128, as the last launch finds them. -/
theorem feat_view (c : Dev nD) :
    (W7 m ρ c (Proc.devRef .tc main_v13) : S25000x128.Idx → EReal)
      = shapeCast S25000x128 (xv m c) shapeCasts_S50000x64_S25000x128 := by
  show StableHlo.after hostOps2_2 _ (Proc.devRef .tc main_v13) = _
  after_results
  rw [W4_arg0]
  rfl

/-- The scatter-added messages, viewed as 25000 rows of 128, as the last launch finds them. -/
theorem agg_view (c : Dev nD) :
    (W7 m ρ c (Proc.devRef .tc main_v14) : S25000x128.Idx → EReal)
      = shapeCast S25000x128
          (Host.scatterAdd (F := Ideal) scatter_S50000x64_S1200000x1_S1200000x64_1_0_0_1
            (broadcastInDim S50000x64 ![] bcast_S_S50000x64 (constant (F := Ideal) S_ .f32 0x00000000#32))
            (broadcastInDim S1200000x1 ![0] bcast_S1200000_S1200000x1_0
              (concatenate S1200000 0 [⟨S800000, dstv m c⟩, ⟨S400000, dstc m c⟩] concatenates_S800000_S400000_S1200000_d0))
            (concatenate S1200000x64 0 [⟨S800000x64, (W6 m ρ c (Proc.devRef .tc main_v6) : S800000x64.Idx → EReal)⟩,
              ⟨S400000x64, (W6 m ρ c (Proc.devRef .tc main_v7) : S400000x64.Idx → EReal)⟩] concatenates_S800000x64_S400000x64_S1200000x64_d0))
          shapeCasts_S50000x64_S25000x128 := by
  refine (agg_of (W6 m ρ c)).trans ?_
  rw [W6_arg11 m ρ c, W6_arg13 m ρ c]

/-- After the last launch its output array is the entrywise sum of its two inputs, clipped below at zero. -/
theorem combine (c : Dev nD) :
    (W8 m ρ c (Proc.devRef .tc main_v15) : S25000x128.Idx → EReal)
      = maximumf (addf (W7 m ρ c (Proc.devRef .tc main_v13) : S25000x128.Idx → EReal) (W7 m ρ c (Proc.devRef .tc main_v14) : S25000x128.Idx → EReal))
          (broadcast S25000x128 (Ideal.ofBits .f32 0x00000000#32)) :=
  (W8_arr m ρ c 2).trans (combine_of (V7 m ρ) c)

/-- The program's result is the last launch's output viewed as 50000 rows of 64. -/
theorem result_view (c : Dev nD) :
    (W9 m ρ c (Proc.devRef .tc main_v16) : S50000x64.Idx → EReal)
      = shapeCast S50000x64 (W8 m ρ c (Proc.devRef .tc main_v15) : S25000x128.Idx → EReal) shapeCasts_S25000x128_S50000x64 := by
  show StableHlo.after hostOps3 _ (Proc.devRef .tc main_v16) = _
  after_results
  rfl

end Cert.KernelIdeal.Val

end
-- ==== Proof.ScatterCat.lean ====
/-
  A scatter-add of whole rows, and what happens when the updates are two lists laid end to end.
  Update row `e` is added into the operand's row `idx[e, 0]` (dropped when that is not a row of the operand).
  Over the extended reals the sum of the updates landing on an entry does not depend on how the updates are
  grouped, so scattering the concatenation of two lists adds exactly what scattering each list separately adds.
-/
import Idealize.ShloMosaic.PureOps.Contract
import Idealize.ShloMosaic.PureOps.Ideal
import Idealize.ShloMosaic.Lib.ValueIdx
import Idealize.ShloMosaic.Lib.Pipeline.Value
import Mathlib.Algebra.BigOperators.Group.Finset.Basic
import Mathlib.Algebra.BigOperators.Fin

noncomputable section

namespace Cert.Rows

open Idealize.ShloMosaic Idealize.ShloMosaic.ValueIdx

/-- The dimension numbers of a scatter of `E` whole rows into an `[N, C]` operand by a column of `E` indices. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window starts at the update row's index value, read signed. -/
theorem start_row {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (scatterRows N E C wf).start (ix2 e q) idx 0 = (idx (ix2 e 0)).toInt := by
  unfold ScatterDims.start
  rw [dif_pos (show (0 : Fin 2) ∈ (scatterRows N E C wf).scatterDimsToOperandDims from List.mem_singleton.mpr rfl)]
  have hsi : (scatterRows N E C wf).siIdx (ix2 e q) ⟨List.idxOf (0 : Fin 2) (scatterRows N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not named by the index map: the window starts at column zero. -/
theorem start_col {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (scatterRows N E C wf).start (ix2 e q) idx 1 = 0 := by
  unfold ScatterDims.start
  rw [dif_neg (show (1 : Fin 2) ∉ ([0] : List (Fin 2)) from by decide)]

/-- The row axis is an inserted axis: the window has no extent along it. -/
theorem window_row {N E C : Nat} (wf : ScatterDims.WF ⟨2, ![N, C]⟩ ⟨2, ![E, 1]⟩ ⟨2, ![E, C]⟩ [1] [0] [0] 1)
    (e : Fin E) (q : Fin C) :
    (scatterRows N E C wf).window (ix2 e q) 0 = 0 := by
  have h0 : (0 : Fin 2) ∉ (scatterRows N E C wf).sKept :=
    (show (0 : Fin 2) ∉ ([1] : List (Fin 2)) from by decide)
  unfold ScatterDims.window
  rw [dif_neg h0]

/-- Along the column axis the window coordinate is the update's column. -/
theorem window_col {N E C : Nat} (wf : ScatterDims.WF ⟨2, ![N, C]⟩ ⟨2, ![E, 1]⟩ ⟨2, ![E, C]⟩ [1] [0] [0] 1)
    (e : Fin E) (q : Fin C) :
    (scatterRows N E C wf).window (ix2 e q) 1 = q.val := by
  have h1 : (1 : Fin 2) ∈ (scatterRows N E C wf).sKept :=
    (show (1 : Fin 2) ∈ ([1] : List (Fin 2)) from by decide)
  unfold ScatterDims.window
  rw [dif_pos h1]
  rfl

/-- Where an update whose row index has the signed value z and whose column is q lands: row z, column q, when z is
    a row of the operand; nowhere otherwise. -/
def land (N C : Nat) (z : Int) (q : Fin C) : Option (⟨2, ![N, C]⟩ : Shape).Idx :=
  if h : 0 ≤ z ∧ z < (N : Int) then some (ix2 ⟨z.toNat, by omega⟩ q) else none

/-- The landing place of update (e, q) depends on the indices only through the value in row e: both axes' start and
    window coordinates are read off above, and the two range conditions reduce to that value being a row. -/
theorem resultIdx_rows {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (scatterRows N E C wf).resultIdx? (ix2 e q) idx = land N C (idx (ix2 e 0)).toInt q := by
  unfold ScatterDims.resultIdx? land
  by_cases hz : 0 ≤ (idx (ix2 e 0)).toInt ∧ (idx (ix2 e 0)).toInt < (N : Int)
  · have hall : ∀ a, 0 ≤ (scatterRows N E C wf).start (ix2 e q) idx a + (scatterRows N E C wf).window (ix2 e q) a ∧
        (scatterRows N E C wf).start (ix2 e q) idx a + (scatterRows N E C wf).window (ix2 e q) a
          < (⟨2, ![N, C]⟩ : Shape).size a := by
      refine Fin.forall_fin_two.mpr ⟨?_, ?_⟩
      · rw [start_row, window_row]
        show 0 ≤ (idx (ix2 e 0)).toInt + ((0 : Nat) : Int) ∧ (idx (ix2 e 0)).toInt + ((0 : Nat) : Int) < (N : Int)
        omega
      · rw [start_col, window_col]
        show 0 ≤ (0 : Int) + (q.val : Int) ∧ (0 : Int) + (q.val : Int) < (C : Int)
        have := q.isLt
        omega
    rw [dif_pos hall, dif_pos hz]
    congr 1
    funext a
    refine Fin.ext ?_
    revert a
    refine Fin.forall_fin_two.mpr ⟨?_, ?_⟩
    · show ((scatterRows N E C wf).start (ix2 e q) idx 0 + ((scatterRows N E C wf).window (ix2 e q) 0 : Nat)).toNat
          = (idx (ix2 e 0)).toInt.toNat
      rw [start_row, window_row]
      omega
    · show ((scatterRows N E C wf).start (ix2 e q) idx 1 + ((scatterRows N E C wf).window (ix2 e q) 1 : Nat)).toNat
          = q.val
      rw [start_col, window_col]
      omega
  · have hnot : ¬ ∀ a, 0 ≤ (scatterRows N E C wf).start (ix2 e q) idx a + (scatterRows N E C wf).window (ix2 e q) a ∧
        (scatterRows N E C wf).start (ix2 e q) idx a + (scatterRows N E C wf).window (ix2 e q) a
          < (⟨2, ![N, C]⟩ : Shape).size a := by
      intro h
      have h0 := h 0
      rw [start_row, window_row] at h0
      apply hz
      change 0 ≤ (idx (ix2 e 0)).toInt + ((0 : Nat) : Int) ∧ (idx (ix2 e 0)).toInt + ((0 : Nat) : Int) < (N : Int) at h0
      omega
    rw [dif_neg hnot, dif_neg hz]

/-- A column of indices made from a list by a broadcast reads the list. -/
theorem col_apply {E w : Nat} (hb : (⟨1, ![E]⟩ : Shape).BroadcastsInDim ⟨2, ![E, 1]⟩ ![0])
    (v : IVec ⟨1, ![E]⟩ w) (e : Fin E) (z : Fin 1) :
    broadcastInDim ⟨2, ![E, 1]⟩ ![0] hb v (ix2 e z) = v (ix1 e) := by
  refine broadcastInDim_apply (s := ⟨1, ![E]⟩) (t := ⟨2, ![E, 1]⟩) ![0] hb v (ix2 e z) (ix1 e) ?_
  refine Fin.forall_fin_one.mpr ?_
  show e.val = if E = 1 then 0 else e.val
  have := e.isLt
  split_ifs with h1
  · omega
  · rfl

/-- Scatter-adding the concatenation of two update lists (indices concatenated alike) into a zero array, added
    to `x`, is `x` plus the first list's scatter plus the second's. -/
theorem scatterAdd_rows_concat {N E1 E2 E C : Nat} (hE : E1 + E2 = E)
    (wf1 : ScatterDims.WF ⟨2, ![N, C]⟩ ⟨2, ![E1, 1]⟩ ⟨2, ![E1, C]⟩ [1] [0] [0] 1)
    (wf2 : ScatterDims.WF ⟨2, ![N, C]⟩ ⟨2, ![E2, 1]⟩ ⟨2, ![E2, C]⟩ [1] [0] [0] 1)
    (wf : ScatterDims.WF ⟨2, ![N, C]⟩ ⟨2, ![E, 1]⟩ ⟨2, ![E, C]⟩ [1] [0] [0] 1)
    (hb1 : (⟨1, ![E1]⟩ : Shape).BroadcastsInDim ⟨2, ![E1, 1]⟩ ![0])
    (hb2 : (⟨1, ![E2]⟩ : Shape).BroadcastsInDim ⟨2, ![E2, 1]⟩ ![0])
    (hb : (⟨1, ![E]⟩ : Shape).BroadcastsInDim ⟨2, ![E, 1]⟩ ![0])
    (hci : Shape.Concatenates [(⟨1, ![E1]⟩ : Shape), ⟨1, ![E2]⟩] ⟨1, ![E]⟩ 0)
    (hcu : Shape.Concatenates [(⟨2, ![E1, C]⟩ : Shape), ⟨2, ![E2, C]⟩] ⟨2, ![E, C]⟩ 0)
    (x Z : (⟨2, ![N, C]⟩ : Shape).Idx → EReal) (hZ : ∀ i, Z i = 0)
    (i1 : IVec ⟨1, ![E1]⟩ 32) (i2 : IVec ⟨1, ![E2]⟩ 32)
    (u1 : (⟨2, ![E1, C]⟩ : Shape).Idx → EReal) (u2 : (⟨2, ![E2, C]⟩ : Shape).Idx → EReal) :
    addf (F := Ideal) (φ := .f32) x
        (Host.scatterAdd (F := Ideal) (φ := .f32) (scatterRows N E C wf) Z
          (broadcastInDim ⟨2, ![E, 1]⟩ ![0] hb (concatenate ⟨1, ![E]⟩ 0 [⟨⟨1, ![E1]⟩, i1⟩, ⟨⟨1, ![E2]⟩, i2⟩] hci))
          (concatenate ⟨2, ![E, C]⟩ 0 [⟨⟨2, ![E1, C]⟩, u1⟩, ⟨⟨2, ![E2, C]⟩, u2⟩] hcu))
      = addf (F := Ideal) (φ := .f32)
          (addf (F := Ideal) (φ := .f32) x
            (Host.scatterAdd (F := Ideal) (φ := .f32) (scatterRows N E1 C wf1) Z (broadcastInDim ⟨2, ![E1, 1]⟩ ![0] hb1 i1) u1))
          (Host.scatterAdd (F := Ideal) (φ := .f32) (scatterRows N E2 C wf2) Z (broadcastInDim ⟨2, ![E2, 1]⟩ ![0] hb2 i2) u2) := by
  subst hE
  funext i
  rw [addf_apply, addf_apply, addf_apply]
  unfold Host.scatterAdd
  rw [Ideal.hostScatterAdd_def, Ideal.hostScatterAdd_def, Ideal.hostScatterAdd_def]
  unfold Ideal.hostScatterAdd
  rw [hZ i, zero_add, zero_add, zero_add, add_assoc]
  congr 1
  -- each filtered sum as a sum over all updates of the update or zero, then over rows and columns; the long
  -- list's rows are the first list's followed by the second's
  rw [Finset.sum_filter, Finset.sum_filter, Finset.sum_filter]
  rw [sum_idx2 (n0 := E1 + E2) (n1 := C), sum_idx2 (n0 := E1) (n1 := C), sum_idx2 (n0 := E2) (n1 := C)]
  rw [Fin.sum_univ_add]
  refine congr (congrArg HAdd.hAdd ?_) ?_
  · -- a row of the first list: the long lists read the first lists there
    refine Finset.sum_congr rfl fun e _ => Finset.sum_congr rfl fun q _ => ?_
    have hi : broadcastInDim ⟨2, ![E1 + E2, 1]⟩ ![0] hb
        (concatenate ⟨1, ![E1 + E2]⟩ 0 [⟨⟨1, ![E1]⟩, i1⟩, ⟨⟨1, ![E2]⟩, i2⟩] hci) (ix2 (Fin.castAdd E2 e) 0)
          = i1 (ix1 e) := by
      rw [col_apply]
      exact concatenate_pair_apply_left (t := ⟨1, ![E1 + E2]⟩) (s₁ := ⟨1, ![E1]⟩) (s₂ := ⟨1, ![E2]⟩) (0 : Fin 1)
        i1 i2 hci (ix1 (Fin.castAdd E2 e)) rfl (ix1 e) (Fin.forall_fin_one.mpr rfl)
    have hu : concatenate ⟨2, ![E1 + E2, C]⟩ 0 [⟨⟨2, ![E1, C]⟩, u1⟩, ⟨⟨2, ![E2, C]⟩, u2⟩] hcu
        (ix2 (Fin.castAdd E2 e) q) = u1 (ix2 e q) :=
      concatenate_pair_apply_left (t := ⟨2, ![E1 + E2, C]⟩) (s₁ := ⟨2, ![E1, C]⟩) (s₂ := ⟨2, ![E2, C]⟩) (0 : Fin 2)
        u1 u2 hcu (ix2 (Fin.castAdd E2 e) q) rfl (ix2 e q) (Fin.forall_fin_two.mpr ⟨rfl, rfl⟩)
    rw [resultIdx_rows, resultIdx_rows, hi, hu, col_apply]
  · -- a row of the second list, which sits after the first list's rows
    refine Finset.sum_congr rfl fun e _ => Finset.sum_congr rfl fun q _ => ?_
    have hi : broadcastInDim ⟨2, ![E1 + E2, 1]⟩ ![0] hb
        (concatenate ⟨1, ![E1 + E2]⟩ 0 [⟨⟨1, ![E1]⟩, i1⟩, ⟨⟨1, ![E2]⟩, i2⟩] hci) (ix2 (Fin.natAdd E1 e) 0)
          = i2 (ix1 e) := by
      rw [col_apply]
      refine concatenate_pair_apply_right (t := ⟨1, ![E1 + E2]⟩) (s₁ := ⟨1, ![E1]⟩) (s₂ := ⟨1, ![E2]⟩) (0 : Fin 1)
        i1 i2 hci (ix1 (Fin.natAdd E1 e)) rfl rfl (ix1 e) ?_ ?_
      · exact Fin.forall_fin_one.mpr (fun h => absurd rfl h)
      · show e.val + E1 = E1 + e.val
        omega
    have hu : concatenate ⟨2, ![E1 + E2, C]⟩ 0 [⟨⟨2, ![E1, C]⟩, u1⟩, ⟨⟨2, ![E2, C]⟩, u2⟩] hcu
        (ix2 (Fin.natAdd E1 e) q) = u2 (ix2 e q) := by
      refine concatenate_pair_apply_right (t := ⟨2, ![E1 + E2, C]⟩) (s₁ := ⟨2, ![E1, C]⟩) (s₂ := ⟨2, ![E2, C]⟩) (0 : Fin 2)
        u1 u2 hcu (ix2 (Fin.natAdd E1 e) q) rfl rfl (ix2 e q) ?_ ?_
      · exact Fin.forall_fin_two.mpr ⟨fun h => absurd rfl h, fun _ => rfl⟩
      · show e.val + E1 = E1 + e.val
        omega
    rw [resultIdx_rows, resultIdx_rows, hi, hu, col_apply]

end Cert.Rows

end
-- ==== Proof.Rows.lean ====
/-
  A gather of whole rows. The start indices are a column `[E, 1]`; result row `e` is the operand's row
  `idx[e, 0]`, read as a signed integer and clamped into the table, and the column coordinate passes through.
-/
import Idealize.ShloMosaic.PureOps.ShapeOps
import Idealize.ShloMosaic.Lib.ValueIdx

noncomputable section

namespace Cert.Rows

open Idealize.ShloMosaic Idealize.ShloMosaic.ValueIdx

/-- The dimension numbers of a gather of whole rows of an `[N, C]` table by a column of `E` indices. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the index, signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- The gather read at `(e, q)`: the table at `(rowOf e, q)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherRows N E C wf) x idx (ix2 e q) = x (ix2 (rowOf hN idx e) q) := by
  unfold Host.gather
  congr 1
  funext a
  refine Fin.ext ?_
  match a with
  | ⟨0, _⟩ =>
    -- the row axis: the clamped start index, nothing added
    show (gatherRows N E C wf).start (ix2 e q) idx 0 + (gatherRows N E C wf).batchCoord (ix2 e q) 0
      + (gatherRows N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e q) ⟨List.idxOf (0 : Fin 2) (gatherRows N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: start 0, and the offset coordinate is the result's column
    show (gatherRows N E C wf).start (ix2 e q) idx 1 + (gatherRows N E C wf).batchCoord (ix2 e q) 1
      + (gatherRows N E C wf).offCoord (ix2 e q) 1 = _
    rw [GatherDims.batchCoord_eq_zero _ _ _ List.not_mem_nil]
    unfold GatherDims.start
    rw [dif_neg (show (1 : Fin 2) ∉ (gatherRows N E C wf).startIndexMap from
      (by decide : (1 : Fin 2) ∉ ([0] : List (Fin 2))))]
    simp only [Nat.add_zero, Nat.zero_add]
    rfl

end Cert.Rows

end
-- ==== Proof.RefMsg.lean ====
/-
  The reference's per-edge messages. The reference picks a row of the feature table for each edge and then
  applies the perceptron to the picked rows. Entry (e, q) of the result depends only on the picked row, so
  it is entry (row e, q) of the perceptron applied to the whole table: the messages are the gather of the
  perceptron's table.
-/
import proofs.«430758_j9096740733260_2_alg».proof.Proof.Gen.ReferenceIdeal.Read
import proofs.«430758_j9096740733260_2_alg».proof.Proof.Spec
import proofs.«430758_j9096740733260_2_alg».proof.Proof.Rows

noncomputable section

namespace Cert.ReferenceIdeal.Msg

open Cert.ReferenceIdeal Cert.ReferenceIdeal.Read Idealize.ShloMosaic Idealize.ShloMosaic.TcCoe Idealize.SL.Sem
open Idealize.ShloMosaic.ValueIdx

/-- The node-to-node messages are the rows of the node perceptron table the (wrapped) source indices name. -/
theorem msgV (x0 : (⟨S50000x64, .f32⟩ : BufTy).Contents (Elt Ideal)) (x2 : (⟨S64x128, .f32⟩ : BufTy).Contents (Elt Ideal))
    (x3 : (⟨S128, .f32⟩ : BufTy).Contents (Elt Ideal)) (x4 : (⟨S128x64, .f32⟩ : BufTy).Contents (Elt Ideal))
    (x5 : (⟨S64, .f32⟩ : BufTy).Contents (Elt Ideal)) (x10 : (⟨S800000, .i32⟩ : BufTy).Contents (Elt Ideal)) :
    val_main_v15 (F := Ideal) x0 x2 x3 x4 x5 x10
      = Host.gather gather_S50000x64_S800000x1_S800000x64_1_0_n_n_0_1_164 (Cert.Spec.mlpTable x0 x2 x3 x4 x5)
          (val_main_v5 (F := Ideal) x10) := by
  funext j
  obtain ⟨e, q, rfl⟩ : ∃ (e : Fin 800000) (q : Fin 64), j = ix2 e q := ⟨j 0, j 1, eq_ix2 j⟩
  -- the right side: the gather of the table reads the table at the picked row, where it is the formula
  have hR : Host.gather gather_S50000x64_S800000x1_S800000x64_1_0_n_n_0_1_164 (Cert.Spec.mlpTable x0 x2 x3 x4 x5)
      (val_main_v5 (F := Ideal) x10) (ix2 e q)
      = Cert.Spec.mlpAt x0 x2 x3 x4 x5 (Cert.Rows.rowOf (N := 50000) (by decide) (val_main_v5 (F := Ideal) x10) e) q :=
    (Cert.Rows.gather_rows_apply (N := 50000) (E := 800000) (C := 64) (by decide)
      Facts₀.gather_S50000x64_S800000x1_S800000x64_1_0_n_n_0_1_164_wf (Cert.Spec.mlpTable x0 x2 x3 x4 x5)
      (val_main_v5 (F := Ideal) x10) e q).trans (Cert.Spec.mlpTable_apply x0 x2 x3 x4 x5 _ q)
  -- the left side: the gathered rows, read at (e, d), are the table at the picked row
  have hG : ∀ d : Fin 64, val_main_v6 (F := Ideal) x0 x10 (ix2 e d)
      = x0 (ix2 (Cert.Rows.rowOf (N := 50000) (by decide) (val_main_v5 (F := Ideal) x10) e) d) := fun d =>
    Cert.Rows.gather_rows_apply (N := 50000) (E := 800000) (C := 64) (by decide)
      Facts₀.gather_S50000x64_S800000x1_S800000x64_1_0_n_n_0_1_164_wf x0 (val_main_v5 (F := Ideal) x10) e d
  -- the index maps of the layers, at coordinates
  have i12l : ∀ k : Fin 128, lidx_main_v12 (ix2 e q) k = ix2 e k := fun k =>
    funext fun a => by match a with | ⟨0, _⟩ => rfl | ⟨1, _⟩ => rfl
  have i12r : ∀ k : Fin 128, ridx_main_v12 (ix2 e q) k = ix2 k q := fun k =>
    funext fun a => by match a with | ⟨0, _⟩ => rfl | ⟨1, _⟩ => rfl
  have i14 : idx_main_v13 (idx_main_v14 (ix2 e q)) = ix1 q :=
    funext fun a => by match a with | ⟨0, _⟩ => rfl
  have i7l : ∀ (k : Fin 128) (d : Fin 64), lidx_main_v7 (ix2 e k) d = ix2 e d := fun k d =>
    funext fun a => by match a with | ⟨0, _⟩ => rfl | ⟨1, _⟩ => rfl
  have i7r : ∀ (k : Fin 128) (d : Fin 64), ridx_main_v7 (ix2 e k) d = ix2 d k := fun k d =>
    funext fun a => by match a with | ⟨0, _⟩ => rfl | ⟨1, _⟩ => rfl
  have i9 : ∀ k : Fin 128, idx_main_v8 (idx_main_v9 (ix2 e k)) = ix1 k := fun k =>
    funext fun a => by match a with | ⟨0, _⟩ => rfl
  rw [hR, val_main_v15_apply, val_main_v12_apply, val_main_v14_apply, val_main_v13_apply, i14, Ideal.addf_def]
  unfold Cert.Spec.mlpAt
  congr 1
  apply Finset.sum_congr rfl
  intro k _
  rw [i12l k, i12r k, val_main_v11_apply, val_main_v10_apply, val_main_v7_apply, val_main_v9_apply,
    val_main_v8_apply, val_main_call0_v0_apply, val_main_call0_cst_apply, i9 k, Ideal.addf_def, Ideal.maximumf_def,
    Ideal.ofBits_def]
  congr 3
  apply Finset.sum_congr rfl
  intro d _
  rw [i7l k d, i7r k d, hG d]

/-- The colour-to-node messages are the rows of the colour perceptron table the (wrapped) source indices name. -/
theorem msgC (x1 : (⟨S256x64, .f32⟩ : BufTy).Contents (Elt Ideal)) (x6 : (⟨S64x128, .f32⟩ : BufTy).Contents (Elt Ideal))
    (x7 : (⟨S128, .f32⟩ : BufTy).Contents (Elt Ideal)) (x8 : (⟨S128x64, .f32⟩ : BufTy).Contents (Elt Ideal))
    (x9 : (⟨S64, .f32⟩ : BufTy).Contents (Elt Ideal)) (x12 : (⟨S400000, .i32⟩ : BufTy).Contents (Elt Ideal)) :
    val_main_v34 (F := Ideal) x1 x6 x7 x8 x9 x12
      = Host.gather gather_S256x64_S400000x1_S400000x64_1_0_n_n_0_1_164 (Cert.Spec.mlpTable x1 x6 x7 x8 x9)
          (val_main_v24 (F := Ideal) x12) := by
  funext j
  obtain ⟨e, q, rfl⟩ : ∃ (e : Fin 400000) (q : Fin 64), j = ix2 e q := ⟨j 0, j 1, eq_ix2 j⟩
  -- the right side: the gather of the table reads the table at the picked row, where it is the formula
  have hR : Host.gather gather_S256x64_S400000x1_S400000x64_1_0_n_n_0_1_164 (Cert.Spec.mlpTable x1 x6 x7 x8 x9)
      (val_main_v24 (F := Ideal) x12) (ix2 e q)
      = Cert.Spec.mlpAt x1 x6 x7 x8 x9 (Cert.Rows.rowOf (N := 256) (by decide) (val_main_v24 (F := Ideal) x12) e) q :=
    (Cert.Rows.gather_rows_apply (N := 256) (E := 400000) (C := 64) (by decide)
      Facts₀.gather_S256x64_S400000x1_S400000x64_1_0_n_n_0_1_164_wf (Cert.Spec.mlpTable x1 x6 x7 x8 x9)
      (val_main_v24 (F := Ideal) x12) e q).trans (Cert.Spec.mlpTable_apply x1 x6 x7 x8 x9 _ q)
  -- the left side: the gathered rows, read at (e, d), are the table at the picked row
  have hG : ∀ d : Fin 64, val_main_v25 (F := Ideal) x1 x12 (ix2 e d)
      = x1 (ix2 (Cert.Rows.rowOf (N := 256) (by decide) (val_main_v24 (F := Ideal) x12) e) d) := fun d =>
    Cert.Rows.gather_rows_apply (N := 256) (E := 400000) (C := 64) (by decide)
      Facts₀.gather_S256x64_S400000x1_S400000x64_1_0_n_n_0_1_164_wf x1 (val_main_v24 (F := Ideal) x12) e d
  -- the index maps of the layers, at coordinates
  have i12l : ∀ k : Fin 128, lidx_main_v31 (ix2 e q) k = ix2 e k := fun k =>
    funext fun a => by match a with | ⟨0, _⟩ => rfl | ⟨1, _⟩ => rfl
  have i12r : ∀ k : Fin 128, ridx_main_v31 (ix2 e q) k = ix2 k q := fun k =>
    funext fun a => by match a with | ⟨0, _⟩ => rfl | ⟨1, _⟩ => rfl
  have i14 : idx_main_v32 (idx_main_v33 (ix2 e q)) = ix1 q :=
    funext fun a => by match a with | ⟨0, _⟩ => rfl
  have i7l : ∀ (k : Fin 128) (d : Fin 64), lidx_main_v26 (ix2 e k) d = ix2 e d := fun k d =>
    funext fun a => by match a with | ⟨0, _⟩ => rfl | ⟨1, _⟩ => rfl
  have i7r : ∀ (k : Fin 128) (d : Fin 64), ridx_main_v26 (ix2 e k) d = ix2 d k := fun k d =>
    funext fun a => by match a with | ⟨0, _⟩ => rfl | ⟨1, _⟩ => rfl
  have i9 : ∀ k : Fin 128, idx_main_v27 (idx_main_v28 (ix2 e k)) = ix1 k := fun k =>
    funext fun a => by match a with | ⟨0, _⟩ => rfl
  rw [hR, val_main_v34_apply, val_main_v31_apply, val_main_v33_apply, val_main_v32_apply, i14, Ideal.addf_def]
  unfold Cert.Spec.mlpAt
  congr 1
  apply Finset.sum_congr rfl
  intro k _
  rw [i12l k, i12r k, val_main_v30_apply, val_main_v29_apply, val_main_v26_apply, val_main_v28_apply,
    val_main_v27_apply, val_main_call1_v0_apply, val_main_call1_cst_apply, i9 k, Ideal.addf_def, Ideal.maximumf_def,
    Ideal.ofBits_def]
  congr 3
  apply Finset.sum_congr rfl
  intro d _
  rw [i7l k d, i7r k d, hG d]

end Cert.ReferenceIdeal.Msg

end
-- ==== Proof.RefValue.lean ====
/-
  The value both programs end at, written once. Every node row keeps its own features and receives, added up,
  the perceptron table's rows its incoming edges name — node edges from the node table, colour edges from the
  colour table — and the sum is clipped below at zero. The reference computes each message by applying the
  perceptron to the row it picked; that is the picked row of the perceptron's table, so the reference's result
  is this value.
-/
import proofs.«430758_j9096740733260_2_alg».proof.Proof.RefMsg

noncomputable section

namespace Cert.ReferenceIdeal.Msg

open Cert.ReferenceIdeal Cert.ReferenceIdeal.Read Idealize.ShloMosaic Idealize.ShloMosaic.TcCoe Idealize.SL.Sem

/-- Node features, plus the scatter-added rows of the node perceptron table, plus the scatter-added rows of the
    colour perceptron table, clipped below at zero. -/
def meet (x0 : (⟨S50000x64, .f32⟩ : BufTy).Contents (Elt Ideal)) (x1 : (⟨S256x64, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 x11 : (⟨S800000, .i32⟩ : BufTy).Contents (Elt Ideal)) (x12 x13 : (⟨S400000, .i32⟩ : BufTy).Contents (Elt Ideal)) :
    (⟨S50000x64, .f32⟩ : BufTy).Contents (Elt Ideal) :=
  maximumf (F := Ideal) (φ := .f32)
    (addf (F := Ideal) (φ := .f32)
      (addf (F := Ideal) (φ := .f32) x0
        (Host.scatterAdd (F := Ideal) (φ := .f32) scatter_S50000x64_S800000x1_S800000x64_1_0_0_1 (val_main_v16 (F := Ideal)) (val_main_v17 (F := Ideal) x11)
          (Host.gather gather_S50000x64_S800000x1_S800000x64_1_0_n_n_0_1_164 (Cert.Spec.mlpTable x0 x2 x3 x4 x5) (val_main_v5 (F := Ideal) x10))))
      (Host.scatterAdd (F := Ideal) (φ := .f32) scatter_S50000x64_S400000x1_S400000x64_1_0_0_1 (val_main_v35 (F := Ideal)) (val_main_v36 (F := Ideal) x13)
        (Host.gather gather_S256x64_S400000x1_S400000x64_1_0_n_n_0_1_164 (Cert.Spec.mlpTable x1 x6 x7 x8 x9) (val_main_v24 (F := Ideal) x12))))
    (val_main_call2_v0 (F := Ideal))

/-- The reference's result stage is that value: its two message arrays are gathers of the perceptron tables. -/
theorem ref_value (x0 : (⟨S50000x64, .f32⟩ : BufTy).Contents (Elt Ideal)) (x1 : (⟨S256x64, .f32⟩ : BufTy).Contents (Elt Ideal)) (x2 : (⟨S64x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 x11 : (⟨S800000, .i32⟩ : BufTy).Contents (Elt Ideal)) (x12 x13 : (⟨S400000, .i32⟩ : BufTy).Contents (Elt Ideal)) :
    val_main_v40 (F := Ideal) x0 x1 x2 x3 x4 x5 x6 x7 x8 x9 x10 x11 x12 x13 = meet x0 x1 x2 x3 x4 x5 x6 x7 x8 x9 x10 x11 x12 x13 := by
  unfold val_main_v40 val_main_v39 val_main_v38 val_main_v18 val_main_v37 meet
  rw [msgV, msgC]

end Cert.ReferenceIdeal.Msg

end
-- ==== Proof.Chain.lean ====
/-
  The idealized kernel program's result, put together. The node message table is the perceptron of every node
  row and the colour message table the perceptron of every colour row; with every source index in range the two
  guarded gathers are plain gathers of those tables' rows; scatter-adding the two message lists laid end to end
  adds what scatter-adding each list separately adds (sums over the extended reals regroup freely); and the last
  launch adds the node features and clips at zero through a change of view of the arrays (50000 rows of 64 seen
  as 25000 rows of 128 and back), which moves no entry.
-/
import proofs.«430758_j9096740733260_2_alg».proof.Proof.Tables
import proofs.«430758_j9096740733260_2_alg».proof.Proof.Take
import proofs.«430758_j9096740733260_2_alg».proof.Proof.Tail
import proofs.«430758_j9096740733260_2_alg».proof.Proof.ScatterCat
import proofs.«430758_j9096740733260_2_alg».proof.Proof.RefValue
import Idealize.ShloMosaic.PureOps.Ideal.Laws

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## Buffers a stretch does not write keep their contents -/

/-- The node message table is untouched between the first launch's exit and the second launch's exit. -/
theorem tableV_kept (c : Dev nD) :
    W4 m ρ c (Proc.devRef .tc main_v2) = W2 m ρ c (Proc.devRef .tc main_v2) :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The colour message table is untouched by the node gather's operations. -/
theorem tableC_kept (c : Dev nD) :
    W5 m ρ c (Proc.devRef .tc main_v5) = W4 m ρ c (Proc.devRef .tc main_v5) :=
  StableHlo.after_of_forall_not_mem (b := Proc.devRef .tc main_v5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The node messages are untouched by the colour gather's operations. -/
theorem msgV_kept (c : Dev nD) :
    W6 m ρ c (Proc.devRef .tc main_v6) = W5 m ρ c (Proc.devRef .tc main_v6) :=
  StableHlo.after_of_forall_not_mem (b := Proc.devRef .tc main_v6) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## A change of view and back moves no entry -/

/-- Adding two arrays and clipping at zero under the 25000 × 128 view, then viewing the result as 50000 × 64, is
    adding and clipping the arrays themselves. -/
theorem view_roundtrip (a b : S50000x64.Idx → EReal) :
    shapeCast S50000x64
        (maximumf (F := Ideal) (φ := .f32)
          (addf (F := Ideal) (φ := .f32) (shapeCast S25000x128 a shapeCasts_S50000x64_S25000x128) (shapeCast S25000x128 b shapeCasts_S50000x64_S25000x128))
          (broadcast S25000x128 (Ideal.ofBits .f32 0x00000000#32)))
        shapeCasts_S25000x128_S50000x64
      = maximumf (F := Ideal) (φ := .f32) (addf (F := Ideal) (φ := .f32) a b) (broadcast S50000x64 (Ideal.ofBits .f32 0x00000000#32)) := by
  funext i
  have hi : Shape.reshapeEquiv shapeCasts_S50000x64_S25000x128 (Shape.reshapeEquiv shapeCasts_S25000x128_S50000x64 i) = i := by
    rw [Shape.reshapeEquiv_reshapeEquiv, Shape.reshapeEquiv_self]
  show max (a (Shape.reshapeEquiv shapeCasts_S50000x64_S25000x128 (Shape.reshapeEquiv shapeCasts_S25000x128_S50000x64 i))
      + b (Shape.reshapeEquiv shapeCasts_S50000x64_S25000x128 (Shape.reshapeEquiv shapeCasts_S25000x128_S50000x64 i))) _ = _
  rw [hi]
  rfl

/-! ## The result -/

/-- With both source-index vectors in range, the program's result array is the common value. -/
theorem kernel_value (c : Dev nD) (hv : Cert.Spec.InRange 50000 (srcv m c)) (hc : Cert.Spec.InRange 256 (srcc m c)) :
    (W9 m ρ c (Proc.devRef .tc main_v16) : S50000x64.Idx → EReal)
      = Cert.ReferenceIdeal.Msg.meet (xv m c) (xc m c) (w1v m c) (b1v m c) (w2v m c) (b2v m c) (w1c m c) (b1c m c)
          (w2c m c) (b2c m c) (srcv m c) (dstv m c) (srcc m c) (dstc m c) := by
  have eV : (W6 m ρ c (Proc.devRef .tc main_v6) : S800000x64.Idx → EReal)
      = Host.gather gather_S50000x64_S800000x1_S800000x64_1_0_n_n_0_1_164
          (Cert.Spec.mlpTable (xv m c) (w1v m c) (b1v m c) (w2v m c) (b2v m c)) (idxV (srcv m c)) := by
    rw [msgV_kept, take_v m ρ c hv, tableV_kept, table_v]
  have eC : (W6 m ρ c (Proc.devRef .tc main_v7) : S400000x64.Idx → EReal)
      = Host.gather gather_S256x64_S400000x1_S400000x64_1_0_n_n_0_1_164
          (Cert.Spec.mlpTable (xc m c) (w1c m c) (b1c m c) (w2c m c) (b2c m c)) (idxC (srcc m c)) := by
    rw [take_c m ρ c hc, tableC_kept, table_c]
  rw [result_view, combine, feat_view, agg_view, eV, eC, view_roundtrip]
  unfold Cert.ReferenceIdeal.Msg.meet
  refine congrArg₂ (fun s z => maximumf (F := Ideal) (φ := .f32) s z) ?_ ?_
  · exact Cert.Rows.scatterAdd_rows_concat (N := 50000) (E1 := 800000) (E2 := 400000) (E := 1200000) (C := 64) rfl
      _ _ _ _ _ _ _ _ (xv m c) _ (fun _ => Ideal.ofBits_zero_f32) (dstv m c) (dstc m c) _ _
  · rfl

end Cert.KernelIdeal.Val

end
-- ==== Proof.lean ====
/-
  The certificate's claims, assembled.

  Both idealized programs end with the same array: each node row keeps its features and receives the sum of the
  two-layer perceptron's outputs for the rows its incoming edges name, clipped below at zero. The kernel program
  applies the perceptron once per table row and gathers rows of the output tables; the reference gathers rows and
  applies the perceptron per edge; a row-wise map commutes with picking rows. The kernel program scatter-adds one
  concatenated message list where the reference scatter-adds two lists and adds the results; sums over the extended
  reals regroup freely. The kernel program's gathers fill a row whose index is not a row of the table with a junk
  word where the reference's read clamps the index: the precondition keeps every source index inside its table, and
  there the two agree. The three frames are the generated ones; the idealization rewrote nothing.
-/
import proofs.«430758_j9096740733260_2_alg».proof.Defs
import proofs.«430758_j9096740733260_2_alg».proof.Proof.Gen.Kernel
import proofs.«430758_j9096740733260_2_alg».proof.Proof.Gen.Kernel.Skeleton
import proofs.«430758_j9096740733260_2_alg».proof.Proof.Gen.Kernel.Launch
import proofs.«430758_j9096740733260_2_alg».proof.Proof.Gen.Kernel.Points
import proofs.«430758_j9096740733260_2_alg».proof.Proof.Gen.Kernel.Frame
import proofs.«430758_j9096740733260_2_alg».proof.Proof.Gen.KernelIdeal
import proofs.«430758_j9096740733260_2_alg».proof.Proof.Gen.KernelIdeal.Skeleton
import proofs.«430758_j9096740733260_2_alg».proof.Proof.Gen.KernelIdeal.Launch
import proofs.«430758_j9096740733260_2_alg».proof.Proof.Gen.KernelIdeal.Points
import proofs.«430758_j9096740733260_2_alg».proof.Proof.Gen.KernelIdeal.Frame
import proofs.«430758_j9096740733260_2_alg».proof.Proof.Gen.ReferenceIdeal
import proofs.«430758_j9096740733260_2_alg».proof.Proof.Gen.ReferenceIdeal.Run
import proofs.«430758_j9096740733260_2_alg».proof.Proof.Gen.ReferenceIdeal.Read
import proofs.«430758_j9096740733260_2_alg».proof.Proof.Gen.Pre_finite_inputs
import proofs.«430758_j9096740733260_2_alg».proof.Proof.RunNamed
import proofs.«430758_j9096740733260_2_alg».proof.Proof.Pre
import proofs.«430758_j9096740733260_2_alg».proof.Proof.Chain
import proofs.«430758_j9096740733260_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both idealized programs end at the common value. -/
theorem algebraic : Cert.algebraic_KernelIdeal_ReferenceIdeal := by
  intro m ρ m' ρ' hpre hagree
  have hr := fun c => Cert.KernelIdeal.Val.inRange_of_pre m hpre c
  refine ⟨fun c => Cert.ReferenceIdeal.Msg.meet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Val.kernel_value m ρ c (hr c).1 (hr c).2), (h c).2⟩)
      (Cert.KernelIdeal.Gen.run_named m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13⟩ := hagree c
    rw [(h c).1, Cert.ReferenceIdeal.Read.val_main_v40_eq, Cert.ReferenceIdeal.Msg.ref_value,
      h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
